-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x16 : Shape := ⟨2, ![4096, 16]⟩
abbrev S256x768 : Shape := ⟨2, ![256, 768]⟩
abbrev S768 : Shape := ⟨1, ![768]⟩
abbrev S16x8 : Shape := ⟨2, ![16, 8]⟩
abbrev S8 : Shape := ⟨1, ![8]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S16x8 .f32) (main_arg5 : FVec F S8 .f32) (main_arg6 : FVec F S256x256 .f32) (main_arg7 : FVec F S256 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x16 .f32) (main_arg2 : FVec F S256x768 .f32) (main_arg3 : FVec F S768 .f32) (main_arg4 : FVec F S16x8 .f32) (main_arg5 : FVec F S8 .f32) (main_arg6 : FVec F S256x256 .f32) (main_arg7 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S4096x256 : Shape := ⟨2, ![4096, 256]⟩
abbrev S4096x16 : Shape := ⟨2, ![4096, 16]⟩
abbrev S256x768 : Shape := ⟨2, ![256, 768]⟩
abbrev S768 : Shape := ⟨1, ![768]⟩
abbrev S16x8 : Shape := ⟨2, ![16, 8]⟩
abbrev S8 : Shape := ⟨1, ![8]⟩
abbrev S256x256 : Shape := ⟨2, ![256, 256]⟩
abbrev S256 : Shape := ⟨1, ![256]⟩
abbrev S4096x8 : Shape := ⟨2, ![4096, 8]⟩
abbrev S1024x256 : Shape := ⟨2, ![1024, 256]⟩
abbrev S1024x16 : Shape := ⟨2, ![1024, 16]⟩
abbrev S1024x8 : Shape := ⟨2, ![1024, 8]⟩
abbrev S1024x768 : Shape := ⟨2, ![1024, 768]⟩
abbrev S1x768 : Shape := ⟨2, ![1, 768]⟩
abbrev S1x8 : Shape := ⟨2, ![1, 8]⟩
abbrev S8x4096 : Shape := ⟨2, ![8, 4096]⟩
abbrev S256x32 : Shape := ⟨2, ![256, 32]⟩
abbrev S4096x32 : Shape := ⟨2, ![4096, 32]⟩
abbrev S256x4096 : Shape := ⟨2, ![256, 4096]⟩
abbrev S1x4096 : Shape := ⟨2, ![1, 4096]⟩
abbrev S256x1 : Shape := ⟨2, ![256, 1]⟩
abbrev S1x256 : Shape := ⟨2, ![1, 256]⟩

abbrev nBuf : Space → Nat
  | .hbm => 14
  | .vmem => 25
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S256x768, .f32⟩
  | .hbm, ⟨3, _⟩ => ⟨S768, .f32⟩
  | .hbm, ⟨4, _⟩ => ⟨S16x8, .f32⟩
  | .hbm, ⟨5, _⟩ => ⟨S8, .f32⟩
  | .hbm, ⟨6, _⟩ => ⟨S256x256, .f32⟩
  | .hbm, ⟨7, _⟩ => ⟨S256, .f32⟩
  | .hbm, ⟨8, _⟩ => ⟨S4096x256, .bf16⟩
  | .hbm, ⟨9, _⟩ => ⟨S4096x256, .bf16⟩
  | .hbm, ⟨10, _⟩ => ⟨S4096x256, .bf16⟩
  | .hbm, ⟨11, _⟩ => ⟨S4096x8, .f32⟩
  | .hbm, ⟨12, _⟩ => ⟨S8x4096, .f32⟩
  | .hbm, ⟨13, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S256x768, .f32⟩
  | .local _ .vmem, ⟨3, _⟩ => ⟨S768, .f32⟩
  | .local _ .vmem, ⟨4, _⟩ => ⟨S1024x16, .f32⟩
  | .local _ .vmem, ⟨5, _⟩ => ⟨S1024x16, .f32⟩
  | .local _ .vmem, ⟨6, _⟩ => ⟨S16x8, .f32⟩
  | .local _ .vmem, ⟨7, _⟩ => ⟨S8, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x8, .f32⟩
  | .local _ .vmem, ⟨15, _⟩ => ⟨S1024x8, .f32⟩
  | .local _ .vmem, ⟨16, _⟩ => ⟨S256x256, .bf16⟩
  | .local _ .vmem, ⟨17, _⟩ => ⟨S256x256, .bf16⟩
  | .local _ .vmem, ⟨18, _⟩ => ⟨S4096x256, .bf16⟩
  | .local _ .vmem, ⟨19, _⟩ => ⟨S4096x256, .bf16⟩
  | .local _ .vmem, ⟨20, _⟩ => ⟨S8x4096, .f32⟩
  | .local _ .vmem, ⟨21, _⟩ => ⟨S256x256, .f32⟩
  | .local _ .vmem, ⟨22, _⟩ => ⟨S256, .f32⟩
  | .local _ .vmem, ⟨23, _⟩ => ⟨S256x256, .f32⟩
  | .local _ .vmem, ⟨24, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  slices_S1024x768_o0_0_S1024x256 : S1024x768.Slices ![0, 0] S1024x256
  packedbf16_S1024x256_S1024x256_0_0 : (Rect.unit (s := S1024x256) ![0, 0] S1024x256.size inb_S1024x256_S1024x256_0_0).PackedRows (EltTy.packing .bf16)
  slices_S1024x768_o0_256_S1024x256 : S1024x768.Slices ![0, 256] S1024x256
  slices_S1024x768_o0_512_S1024x256 : S1024x768.Slices ![0, 512] S1024x256
  inb_S1024x16_S1024x16_0_0 : ∀ a, (![0, 0] : Fin 2 → Nat) a + S1024x16.size a ≤ S1024x16.size a
  h_S1024x16 : 0 < S1024x16.numel
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S1024x8_S1024x8_0_0 : ∀ a, (![0, 0] : Fin 2 → Nat) a + S1024x8.size a ≤ S1024x8.size a
  h_S1024x8 : 0 < S1024x8.numel
  transposes_S4096x8_S8x4096_1_0 : S4096x8.Transposes [1, 0] S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S256x256_S256x32_0_0 : ∀ a, (![0, 0] : Fin 2 → Nat) a + S256x32.size a ≤ S256x256.size a
  h_S256x32 : 0 < S256x32.numel
  shapeCasts_S256x32_S256x32 : S256x32.ShapeCasts S256x32
  inb_S4096x256_S4096x32_0_0 : ∀ a, (![0, 0] : Fin 2 → Nat) a + S4096x32.size a ≤ S4096x256.size a
  h_S4096x32 : 0 < S4096x32.numel
  shapeCasts_S4096x32_S4096x32 : S4096x32.ShapeCasts S4096x32
  slices_S8x4096_o0_0_S1x4096 : S8x4096.Slices ![0, 0] S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  broadcasts_S256x1_S256x32 : S256x1.Broadcasts S256x32
  inb_S256x256_S256x32_0_32 : ∀ a, (![0, 32] : Fin 2 → Nat) a + S256x32.size a ≤ S256x256.size a
  inb_S4096x256_S4096x32_0_32 : ∀ a, (![0, 32] : Fin 2 → Nat) a + S4096x32.size a ≤ S4096x256.size a
  slices_S8x4096_o1_0_S1x4096 : S8x4096.Slices ![1, 0] S1x4096
  inb_S256x256_S256x32_0_64 : ∀ a, (![0, 64] : Fin 2 → Nat) a + S256x32.size a ≤ S256x256.size a
  inb_S4096x256_S4096x32_0_64 : ∀ a, (![0, 64] : Fin 2 → Nat) a + S4096x32.size a ≤ S4096x256.size a
  slices_S8x4096_o2_0_S1x4096 : S8x4096.Slices ![2, 0] S1x4096
  inb_S256x256_S256x32_0_96 : ∀ a, (![0, 96] : Fin 2 → Nat) a + S256x32.size a ≤ S256x256.size a
  inb_S4096x256_S4096x32_0_96 : ∀ a, (![0, 96] : Fin 2 → Nat) a + S4096x32.size a ≤ S4096x256.size a
  slices_S8x4096_o3_0_S1x4096 : S8x4096.Slices ![3, 0] S1x4096
  inb_S256x256_S256x32_0_128 : ∀ a, (![0, 128] : Fin 2 → Nat) a + S256x32.size a ≤ S256x256.size a
  inb_S4096x256_S4096x32_0_128 : ∀ a, (![0, 128] : Fin 2 → Nat) a + S4096x32.size a ≤ S4096x256.size a
  slices_S8x4096_o4_0_S1x4096 : S8x4096.Slices ![4, 0] S1x4096
  inb_S256x256_S256x32_0_160 : ∀ a, (![0, 160] : Fin 2 → Nat) a + S256x32.size a ≤ S256x256.size a
  inb_S4096x256_S4096x32_0_160 : ∀ a, (![0, 160] : Fin 2 → Nat) a + S4096x32.size a ≤ S4096x256.size a
  slices_S8x4096_o5_0_S1x4096 : S8x4096.Slices ![5, 0] S1x4096
  inb_S256x256_S256x32_0_192 : ∀ a, (![0, 192] : Fin 2 → Nat) a + S256x32.size a ≤ S256x256.size a
  inb_S4096x256_S4096x32_0_192 : ∀ a, (![0, 192] : Fin 2 → Nat) a + S4096x32.size a ≤ S4096x256.size a
  slices_S8x4096_o6_0_S1x4096 : S8x4096.Slices ![6, 0] S1x4096
  inb_S256x256_S256x32_0_224 : ∀ a, (![0, 224] : Fin 2 → Nat) a + S256x32.size a ≤ S256x256.size a
  inb_S4096x256_S4096x32_0_224 : ∀ a, (![0, 224] : Fin 2 → Nat) a + S4096x32.size a ≤ S4096x256.size a
  slices_S8x4096_o7_0_S1x4096 : S8x4096.Slices ![7, 0] S1x4096
  concatenates_S256x32_S256x32_S256x32_S256x32_S256x32_S256x32_S256x32_S256x32_S256x256_d1 : Shape.Concatenates [S256x32, S256x32, S256x32, S256x32, S256x32, S256x32, S256x32, S256x32] S256x256 1
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  dot_S1024x256_S256x768_S1024x768_1_0_0_1_n_n_wf : DotDims.WF S1024x256 S256x768 S1024x768 [1] [0] [0] [1] [] []
  dot_S1024x16_S16x8_S1024x8_1_0_0_1_n_n_wf : DotDims.WF S1024x16 S16x8 S1024x8 [1] [0] [0] [1] [] []
  dot_S256x32_S4096x32_S256x4096_1_1_0_0_n_n_wf : DotDims.WF S256x32 S4096x32 S256x4096 [1] [1] [0] [0] [] []
  dot_S256x4096_S4096x32_S256x32_1_0_0_1_n_n_wf : DotDims.WF S256x4096 S4096x32 S256x32 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S16x8.size a
  hwx0_4 : ∀ i : grid0.Coords, EltTy.bits .f32 = 32 ∨ (Rect.block (s := S16x8) S16x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .bf16 = 32 ∨ (Rect.block (s := S4096x256) S1024x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S4096x256.size a
  hwx0_7 : ∀ i : grid0.Coords, EltTy.bits .bf16 = 32 ∨ (Rect.block (s := S4096x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S4096x256.size a
  hwx0_8 : ∀ i : grid0.Coords, EltTy.bits .bf16 = 32 ∨ (Rect.block (s := S4096x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x8.size a ≤ S4096x8.size a
  hwx0_9 : ∀ i : grid0.Coords, EltTy.bits .f32 = 32 ∨ (Rect.block (s := S4096x8) S1024x8.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x256.size a
  hwx1_0 : ∀ i : grid1.Coords, EltTy.bits .bf16 = 32 ∨ (Rect.block (s := S4096x256) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S4096x256.size a
  hwx1_6 : ∀ i : grid1.Coords, EltTy.bits .f32 = 32 ∨ (Rect.block (s := S4096x256) S256x256.size (cc1_transform_6 i) (hinb1_6 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S256x32_S4096x32_S256x4096_1_1_0_0_n_n : DotDims S256x32 S4096x32 S256x4096 where
  lhsContracting := [1]
  rhsContracting := [1]
  lhsNonContracting := [0]
  rhsNonContracting := [0]
  lhsBatch := []
  rhsBatch := []
  wf := dot_S256x32_S4096x32_S256x4096_1_1_0_0_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S1024x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0_0) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x16 : Shape := ⟨2, ![4096, 16]⟩
abbrev S256x768 : Shape := ⟨2, ![256, 768]⟩
abbrev S768 : Shape := ⟨1, ![768]⟩
abbrev S16x8 : Shape := ⟨2, ![16, 8]⟩
abbrev S8 : Shape := ⟨1, ![8]⟩
abbrev S256x256 : Shape := ⟨2, ![256, 256]⟩
abbrev S256 : Shape := ⟨1, ![256]⟩
abbrev S4096x768 : Shape := ⟨2, ![4096, 768]⟩
abbrev S1x768 : Shape := ⟨2, ![1, 768]⟩
abbrev S4096x3x8x32 : Shape := ⟨4, ![4096, 3, 8, 32]⟩
abbrev S3x8x4096x32 : Shape := ⟨4, ![3, 8, 4096, 32]⟩
abbrev S1x8x4096x32 : Shape := ⟨4, ![1, 8, 4096, 32]⟩
abbrev S8x4096x32 : Shape := ⟨3, ![8, 4096, 32]⟩
abbrev S8x4096x4096 : Shape := ⟨3, ![8, 4096, 4096]⟩
abbrev S_ : Shape := ⟨0, ![]⟩
abbrev S4096x8 : Shape := ⟨2, ![4096, 8]⟩
abbrev S1x8 : Shape := ⟨2, ![1, 8]⟩
abbrev S4096x1x8 : Shape := ⟨3, ![4096, 1, 8]⟩
abbrev S1x4096x8 : Shape := ⟨3, ![1, 4096, 8]⟩
abbrev S4096x4096x8 : Shape := ⟨3, ![4096, 4096, 8]⟩
abbrev S8x4096 : Shape := ⟨2, ![8, 4096]⟩
abbrev S8x4096x1 : Shape := ⟨3, ![8, 4096, 1]⟩
abbrev S8x32x4096 : Shape := ⟨3, ![8, 32, 4096]⟩
abbrev S4096x8x32 : Shape := ⟨3, ![4096, 8, 32]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S256x768, .f32⟩
  | .hbm, ⟨3, _⟩ => ⟨S768, .f32⟩
  | .hbm, ⟨4, _⟩ => ⟨S16x8, .f32⟩
  | .hbm, ⟨5, _⟩ => ⟨S8, .f32⟩
  | .hbm, ⟨6, _⟩ => ⟨S256x256, .f32⟩
  | .hbm, ⟨7, _⟩ => ⟨S256, .f32⟩
  | .hbm, ⟨8, _⟩ => ⟨S4096x768, .f32⟩
  | .hbm, ⟨9, _⟩ => ⟨S1x768, .f32⟩
  | .hbm, ⟨10, _⟩ => ⟨S4096x768, .f32⟩
  | .hbm, ⟨11, _⟩ => ⟨S4096x768, .f32⟩
  | .hbm, ⟨12, _⟩ => ⟨S4096x3x8x32, .f32⟩
  | .hbm, ⟨13, _⟩ => ⟨S3x8x4096x32, .f32⟩
  | .hbm, ⟨14, _⟩ => ⟨S1x8x4096x32, .f32⟩
  | .hbm, ⟨15, _⟩ => ⟨S8x4096x32, .f32⟩
  | .hbm, ⟨16, _⟩ => ⟨S1x8x4096x32, .f32⟩
  | .hbm, ⟨17, _⟩ => ⟨S8x4096x32, .f32⟩
  | .hbm, ⟨18, _⟩ => ⟨S1x8x4096x32, .f32⟩
  | .hbm, ⟨19, _⟩ => ⟨S8x4096x32, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S4096x8, .f32⟩
  | .hbm, ⟨25, _⟩ => ⟨S1x8, .f32⟩
  | .hbm, ⟨26, _⟩ => ⟨S4096x8, .f32⟩
  | .hbm, ⟨27, _⟩ => ⟨S4096x8, .f32⟩
  | .hbm, ⟨28, _⟩ => ⟨S4096x1x8, .f32⟩
  | .hbm, ⟨29, _⟩ => ⟨S1x4096x8, .f32⟩
  | .hbm, ⟨30, _⟩ => ⟨S4096x4096x8, .f32⟩
  | .hbm, ⟨31, _⟩ => ⟨S4096x4096x8, .f32⟩
  | .hbm, ⟨32, _⟩ => ⟨S4096x4096x8, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x32x4096, .f32⟩
  | .hbm, ⟨50, _⟩ => ⟨S4096x8x32, .f32⟩
  | .hbm, ⟨51, _⟩ => ⟨S4096x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x3x8x32 : S4096x768.ShapeCasts S4096x3x8x32
  transposes_S4096x3x8x32_S3x8x4096x32_1_2_0_3 : S4096x3x8x32.Transposes [1, 2, 0, 3] S3x8x4096x32
  slices_S3x8x4096x32_S1x8x4096x32_0_0_0_0 : S3x8x4096x32.Slices ![0, 0, 0, 0] S1x8x4096x32
  shapeCasts_S1x8x4096x32_S8x4096x32 : S1x8x4096x32.ShapeCasts S8x4096x32
  slices_S3x8x4096x32_S1x8x4096x32_1_0_0_0 : S3x8x4096x32.Slices ![1, 0, 0, 0] S1x8x4096x32
  slices_S3x8x4096x32_S1x8x4096x32_2_0_0_0 : S3x8x4096x32.Slices ![2, 0, 0, 0] S1x8x4096x32
  bcast_S_S8x4096x4096 : S_.BroadcastsInDim S8x4096x4096 (![] : Fin 0 → Fin S8x4096x4096.rank)
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S4096x8_S4096x1x8_0_2 : S4096x8.BroadcastsInDim S4096x1x8 (![0, 2] : Fin 2 → Fin S4096x1x8.rank)
  bcast_S4096x8_S1x4096x8_1_2 : S4096x8.BroadcastsInDim S1x4096x8 (![1, 2] : Fin 2 → Fin S1x4096x8.rank)
  bcast_S4096x1x8_S4096x4096x8_0_1_2 : S4096x1x8.BroadcastsInDim S4096x4096x8 (![0, 1, 2] : Fin 3 → Fin S4096x4096x8.rank)
  bcast_S1x4096x8_S4096x4096x8_0_1_2 : S1x4096x8.BroadcastsInDim S4096x4096x8 (![0, 1, 2] : Fin 3 → Fin S4096x4096x8.rank)
  transposes_S4096x4096x8_S8x4096x4096_2_0_1 : S4096x4096x8.Transposes [2, 0, 1] S8x4096x4096
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x32x4096_S4096x8x32_2_0_1 : S8x32x4096.Transposes [2, 0, 1] S4096x8x32
  shapeCasts_S4096x8x32_S4096x256 : S4096x8x32.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  dot_S4096x256_S256x768_S4096x768_1_0_0_1_n_n_wf : DotDims.WF S4096x256 S256x768 S4096x768 [1] [0] [0] [1] [] []
  dot_S8x4096x32_S8x4096x32_S8x4096x4096_2_2_1_1_0_0_wf : DotDims.WF S8x4096x32 S8x4096x32 S8x4096x4096 [2] [2] [1] [1] [0] [0]
  dot_S4096x16_S16x8_S4096x8_1_0_0_1_n_n_wf : DotDims.WF S4096x16 S16x8 S4096x8 [1] [0] [0] [1] [] []
  dot_S8x4096x32_S8x4096x4096_S8x32x4096_1_2_2_1_0_0_wf : DotDims.WF S8x4096x32 S8x4096x4096 S8x32x4096 [1] [2] [2] [1] [0] [0]
  dot_S4096x256_S256x256_S4096x256_1_0_0_1_n_n_wf : DotDims.WF S4096x256 S256x256 S4096x256 [1] [0] [0] [1] [] []

variable [Facts₀]

def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S8x4096x32_S8x4096x4096_S8x32x4096_1_2_2_1_0_0 : DotDims S8x4096x32 S8x4096x4096 S8x32x4096 where
  lhsContracting := [1]
  rhsContracting := [2]
  lhsNonContracting := [2]
  rhsNonContracting := [1]
  lhsBatch := [0]
  rhsBatch := [0]
  wf := dot_S8x4096x32_S8x4096x4096_S8x32x4096_1_2_2_1_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.Spec.lean ====
/-
  The attention layer with a pairwise positional bias, as two index-by-index functions on the extended reals.

  Both programs compute, from x, pe and the weights,
    QKV[n, j]   = Σ_a x[n, a] · Wqkv[a, j] + bqkv[j]          (j < 768: query, key, value columns 0.., 256.., 512..)
    P[n, h]     = Σ_a pe[n, a] · Wpe[a, h] + bpe[h]
  and for each head h (columns 32h .. 32h+31) and query row n a softmax-weighted average of the value rows,
  followed by the output projection. They differ in where the scale c = 2^(-5/2) (one f32 literal on both
  sides) is applied, in whether the query-side bias P[n, h] enters the scores, and in whether the softmax is
  normalised before or after the product with the values. `kRow` is the first arrangement, `ROut` the second.
-/
import Idealize.ShloMosaic.PureOps.Ideal
import Idealize.ShloMosaic.Lib.ValueIdx

noncomputable section

namespace Attn

open Idealize.ShloMosaic Idealize.ShloMosaic.ValueIdx

/-- A rank-2 array of extended reals over literal extents. -/
abbrev A2 (a b : Nat) : Type := (⟨2, ![a, b]⟩ : Shape).Idx → EReal
/-- A rank-1 array of extended reals. -/
abbrev A1 (a : Nat) : Type := (⟨1, ![a]⟩ : Shape).Idx → EReal

/-- The two coordinates of a rank-2 index, at their literal extents. -/
abbrev c0 {n0 n1 : Nat} (i : (⟨2, ![n0, n1]⟩ : Shape).Idx) : Fin n0 := ⟨(i 0).val, idx2_lt0 i⟩
abbrev c1 {n0 n1 : Nat} (i : (⟨2, ![n0, n1]⟩ : Shape).Idx) : Fin n1 := ⟨(i 1).val, idx2_lt1 i⟩

/-- Column `32·h + e` of a 256-wide array: entry `e` of head `h`. -/
def col (h : Fin 8) (e : Fin 32) : Fin 256 := ⟨32 * h.val + e.val, by have := h.isLt; have := e.isLt; omega⟩
/-- The head a column belongs to, and its place inside the head. -/
def hd (e : Fin 256) : Fin 8 := ⟨e.val / 32, by have := e.isLt; omega⟩
def dd (e : Fin 256) : Fin 32 := ⟨e.val % 32, Nat.mod_lt _ (by decide)⟩
/-- The query, key and value columns of the fused 768-wide projection. -/
def qcol (j : Fin 256) : Fin 768 := ⟨j.val, by have := j.isLt; omega⟩
def kcol (j : Fin 256) : Fin 768 := ⟨256 + j.val, by have := j.isLt; omega⟩
def vcol (j : Fin 256) : Fin 768 := ⟨512 + j.val, by have := j.isLt; omega⟩

/-- The scale `32^(-1/2)` as the one f32 literal both programs carry. -/
def sc : EReal := Ideal.ofBits .f32 0x3E3504F3#32

/-- The fused projection `x · Wqkv + bqkv` at row `n`, column `j`. -/
def proj (x : A2 4096 256) (W : A2 256 768) (b : A1 768) (n : Fin 4096) (j : Fin 768) : EReal :=
  (∑ a : Fin 256, x (ix2 n a) * W (ix2 a j)) + b (ix1 j)

/-- The positional projection `pe · Wpe + bpe` at row `n`, head `h`. -/
def peProj (pe : A2 4096 16) (Wpe : A2 16 8) (bpe : A1 8) (n : Fin 4096) (h : Fin 8) : EReal :=
  (∑ a : Fin 16, pe (ix2 n a) * Wpe (ix2 a h)) + bpe (ix1 h)

/-! ## The first arrangement: scale folded into the query, key-side bias only, normalise last -/

/-- The average of `v` under the softmax weights of the scores `s`, computed with the row maximum subtracted
    and the normalisation applied to the weighted sum. -/
def softAvg (s v : Fin 4096 → EReal) : EReal :=
  Ideal.div (∑ m : Fin 4096, Ideal.exp (s m - (Finset.univ : Finset (Fin 4096)).fold max ⊥ s) * v m)
    (∑ m : Fin 4096, Ideal.exp (s m - (Finset.univ : Finset (Fin 4096)).fold max ⊥ s))

/-- One head's output at query row `r`, entry `d`, from that head's query, key and value slices and the
    transposed positional projection `per`. -/
def headVal (per : A2 8 4096) (h : Fin 8) (q : A2 256 32) (k v : A2 4096 32) (r : Fin 256) (d : Fin 32) : EReal :=
  softAvg (fun m => (∑ e : Fin 32, (q (ix2 r e) * sc) * k (ix2 m e)) - per (ix2 h m)) (fun m => v (ix2 m d))

/-- The same from one query row `q` (256 wide) and the whole key and value arrays. -/
def kHead (q : Fin 256 → EReal) (K V : A2 4096 256) (Pt : A2 8 4096) (h : Fin 8) (d : Fin 32) : EReal :=
  softAvg (fun m => (∑ e : Fin 32, (q (col h e) * sc) * K (ix2 m (col h e))) - Pt (ix2 h m)) (fun m => V (ix2 m (col h d)))

/-- The output projection of the eight heads side by side, for one query row. -/
def kRow (q : Fin 256 → EReal) (K V : A2 4096 256) (Pt : A2 8 4096) (Wout : A2 256 256) (bout : A1 256) (j : Fin 256) : EReal :=
  (∑ e : Fin 256, kHead q K V Pt (hd e) (dd e) * Wout (ix2 e j)) + bout (ix1 j)

/-- A tile of 256 query rows. -/
def attnTile (q : A2 256 256) (K V : A2 4096 256) (Pt : A2 8 4096) (Wout : A2 256 256) (bout : A1 256) : A2 256 256 :=
  fun y => kRow (fun e => q (ix2 (c0 y) e)) K V Pt Wout bout (c1 y)

/-- All 4096 query rows. -/
def attnOut (Q K V : A2 4096 256) (Pt : A2 8 4096) (Wout : A2 256 256) (bout : A1 256) : A2 4096 256 :=
  fun i => kRow (fun e => Q (ix2 (c0 i) e)) K V Pt Wout bout (c1 i)

/-- The three projected arrays and the transposed positional projection. -/
def KQ (x : A2 4096 256) (W : A2 256 768) (b : A1 768) : A2 4096 256 := fun i => proj x W b (c0 i) (qcol (c1 i))
def KK (x : A2 4096 256) (W : A2 256 768) (b : A1 768) : A2 4096 256 := fun i => proj x W b (c0 i) (kcol (c1 i))
def KV (x : A2 4096 256) (W : A2 256 768) (b : A1 768) : A2 4096 256 := fun i => proj x W b (c0 i) (vcol (c1 i))
def KP (pe : A2 4096 16) (Wpe : A2 16 8) (bpe : A1 8) : A2 4096 8 := fun i => peProj pe Wpe bpe (c0 i) (c1 i)
def KPt (pe : A2 4096 16) (Wpe : A2 16 8) (bpe : A1 8) : A2 8 4096 := fun i => peProj pe Wpe bpe (c1 i) (c0 i)

/-- The first arrangement end to end. -/
def KOut (x : A2 4096 256) (pe : A2 4096 16) (W : A2 256 768) (b : A1 768) (Wpe : A2 16 8) (bpe : A1 8)
    (Wout : A2 256 256) (bout : A1 256) : A2 4096 256 :=
  attnOut (KQ x W b) (KK x W b) (KV x W b) (KPt pe Wpe bpe) Wout bout

/-! ## The second arrangement: scale on the scores, both bias terms, normalise the weights first -/

section Ref
variable (x : A2 4096 256) (pe : A2 4096 16) (W : A2 256 768) (b : A1 768) (Wpe : A2 16 8) (bpe : A1 8)

def rScore (h : Fin 8) (n m : Fin 4096) : EReal :=
  ((∑ e : Fin 32, proj x W b n (qcol (col h e)) * proj x W b m (kcol (col h e))) * sc)
    + (peProj pe Wpe bpe n h - peProj pe Wpe bpe m h)

def rMax (h : Fin 8) (n : Fin 4096) : EReal := (Finset.univ : Finset (Fin 4096)).fold max ⊥ (rScore x pe W b Wpe bpe h n)

def rExp (h : Fin 8) (n m : Fin 4096) : EReal := Ideal.exp (rScore x pe W b Wpe bpe h n m - rMax x pe W b Wpe bpe h n)

def rAttn (h : Fin 8) (n m : Fin 4096) : EReal :=
  Ideal.div (rExp x pe W b Wpe bpe h n m) (∑ m' : Fin 4096, rExp x pe W b Wpe bpe h n m')

def rHead (h : Fin 8) (d : Fin 32) (n : Fin 4096) : EReal :=
  ∑ m : Fin 4096, proj x W b m (vcol (col h d)) * rAttn x pe W b Wpe bpe h n m

def ROut (Wout : A2 256 256) (bout : A1 256) : A2 4096 256 :=
  fun i => (∑ e : Fin 256, rHead x pe W b Wpe bpe (hd e) (dd e) (c0 i) * Wout (ix2 e (c1 i))) + bout (ix1 (c1 i))
end Ref

end Attn

end
-- ==== Proof.Reg0.lean ====
import proofs.«430919_j21088289423720_3_alg».proof.Proof.Gen.KernelIdeal.Frame
import proofs.«430919_j21088289423720_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The positional product read at an index

The product of a 1024×16 tile with the 16×8 weight contracts the tile's columns against the weight's rows: at
row p and head h its operands are read at (p, a) and (a, h), a running over the sixteen contracted positions. -/

theorem peDot_lhs_0 (i : S1024x8.Idx) (q : dot_S1024x16_S16x8_S1024x8_1_0_0_1_n_n.contr.Idx) :
    (dot_S1024x16_S16x8_S1024x8_1_0_0_1_n_n.lhsIdx i q 0).val = (i 0).val := by
  unfold DotDims.lhsIdx
  rw [dif_neg (show ¬(0 : Fin S1024x16.rank) ∈ dot_S1024x16_S16x8_S1024x8_1_0_0_1_n_n.lhsBatch by decide), dif_pos (show (0 : Fin S1024x16.rank) ∈ dot_S1024x16_S16x8_S1024x8_1_0_0_1_n_n.lhsNonContracting by decide)]
  rfl
theorem peDot_lhs_1 (i : S1024x8.Idx) (q : dot_S1024x16_S16x8_S1024x8_1_0_0_1_n_n.contr.Idx) :
    (dot_S1024x16_S16x8_S1024x8_1_0_0_1_n_n.lhsIdx i q 1).val = (q ⟨0, by decide⟩).val :=
  dot_S1024x16_S16x8_S1024x8_1_0_0_1_n_n.lhsIdx_val_of_single rfl i q
theorem peDot_rhs_0 (i : S1024x8.Idx) (q : dot_S1024x16_S16x8_S1024x8_1_0_0_1_n_n.contr.Idx) :
    (dot_S1024x16_S16x8_S1024x8_1_0_0_1_n_n.rhsIdx i q 0).val = (q ⟨0, by decide⟩).val :=
  dot_S1024x16_S16x8_S1024x8_1_0_0_1_n_n.rhsIdx_val_of_single rfl i q
theorem peDot_rhs_1 (i : S1024x8.Idx) (q : dot_S1024x16_S16x8_S1024x8_1_0_0_1_n_n.contr.Idx) :
    (dot_S1024x16_S16x8_S1024x8_1_0_0_1_n_n.rhsIdx i q 1).val = (i 1).val := by
  unfold DotDims.rhsIdx
  rw [dif_neg (show ¬(1 : Fin S16x8.rank) ∈ dot_S1024x16_S16x8_S1024x8_1_0_0_1_n_n.rhsBatch by decide), dif_pos (show (1 : Fin S16x8.rank) ∈ dot_S1024x16_S16x8_S1024x8_1_0_0_1_n_n.rhsNonContracting by decide)]
  rfl

/-- The tile's product with the weight, into the zero accumulator, at row `p` and head `h`. -/
theorem peDot_apply (l : FVec Ideal S1024x16 .bf16) (w : FVec Ideal S16x8 .bf16) (p : Fin 1024) (h : Fin 8) :
    matmul dot_S1024x16_S16x8_S1024x8_1_0_0_1_n_n none l w (constant (F := Ideal) S1024x8 .f32 0x00000000#32) (ix2 p h)
      = ∑ a : Fin 16, l (ix2 p a) * w (ix2 a h) := by
  simp only [matmul]
  rw [Ideal.matmul_constant_zero_apply, ← Equiv.sum_comp (contrEquiv1 dot_S1024x16_S16x8_S1024x8_1_0_0_1_n_n 16 rfl rfl).symm]
  refine Finset.sum_congr rfl fun k _ => ?_
  have hk := contrEquiv1_symm_val dot_S1024x16_S16x8_S1024x8_1_0_0_1_n_n 16 rfl rfl k
  have el : dot_S1024x16_S16x8_S1024x8_1_0_0_1_n_n.lhsIdx (ix2 p h) ((contrEquiv1 dot_S1024x16_S16x8_S1024x8_1_0_0_1_n_n 16 rfl rfl).symm k) = ix2 p k := funext fun a => Fin.ext (by
    match a with
    | ⟨0, _⟩ => exact peDot_lhs_0 _ _
    | ⟨1, _⟩ => exact (peDot_lhs_1 _ _).trans hk)
  have er : dot_S1024x16_S16x8_S1024x8_1_0_0_1_n_n.rhsIdx (ix2 p h) ((contrEquiv1 dot_S1024x16_S16x8_S1024x8_1_0_0_1_n_n 16 rfl rfl).symm k) = ix2 k h := funext fun a => Fin.ext (by
    match a with
    | ⟨0, _⟩ => exact (peDot_rhs_0 _ _).trans hk
    | ⟨1, _⟩ => exact peDot_rhs_1 _ _)
  rw [el, er]

/-- What the body stores in the positional tile, at row `p` and head `h`: the tile's row against the weight's
    column, plus the bias at `h` (roundings are the identity on the extended reals). -/
theorem pay5_apply (x3 : Vec Ideal S1024x16 .f32) (x4 : Vec Ideal S16x8 .f32) (x5 : Vec Ideal S8 .f32) (p : Fin 1024) (h : Fin 8) :
    k0_pay5 x3 x4 x5 (ix2 p h) = (∑ a : Fin 16, x3 (ix2 p a) * x4 (ix2 a h)) + x5 (ix1 h) := by
  unfold k0_pay5
  refine (addf_apply _ _ _).trans ?_
  refine congrArg₂ (· + ·) ?_ ?_
  · exact peDot_apply _ _ p h
  · refine (broadcastTo_1b_ab_apply _ _ p h).trans ?_
    exact shapeCast_a_1a_apply x5 _ 0 h

/-! ## The fused product read at an index

The product of a 1024×256 tile with the 256×768 weight contracts the tile's columns against the weight's rows: at
row p and column j its operands are read at (p, a) and (a, j), a running over the 256 contracted positions. -/

theorem qkvDot_lhs_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem qkvDot_lhs_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem qkvDot_rhs_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem qkvDot_rhs_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The tile's product with the fused weight, into the zero accumulator, at row `p` and column `j`. -/
theorem qkvDot_apply (l : FVec Ideal S1024x256 .bf16) (w : FVec Ideal S256x768 .bf16) (p : Fin 1024) (j : Fin 768) :
    matmul dot_S1024x256_S256x768_S1024x768_1_0_0_1_n_n none l w (constant (F := Ideal) S1024x768 .f32 0x00000000#32) (ix2 p j)
      = ∑ a : Fin 256, l (ix2 p a) * w (ix2 a j) := by
  simp only [matmul]
  rw [Ideal.matmul_constant_zero_apply, ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 p j) ((contrEquiv1 dot_S1024x256_S256x768_S1024x768_1_0_0_1_n_n 256 rfl rfl).symm k) = ix2 p k := funext fun a => Fin.ext (by
    match a with
    | ⟨0, _⟩ => exact qkvDot_lhs_0 _ _
    | ⟨1, _⟩ => exact (qkvDot_lhs_1 _ _).trans hk)
  have er : dot_S1024x256_S256x768_S1024x768_1_0_0_1_n_n.rhsIdx (ix2 p j) ((contrEquiv1 dot_S1024x256_S256x768_S1024x768_1_0_0_1_n_n 256 rfl rfl).symm k) = ix2 k j := funext fun a => Fin.ext (by
    match a with
    | ⟨0, _⟩ => exact (qkvDot_rhs_0 _ _).trans hk
    | ⟨1, _⟩ => exact qkvDot_rhs_1 _ _)
  rw [el, er]

/-- The fused 768-wide value the body computes, at row `p` and column `j`: the tile's row against the weight's
    column, plus the bias at `j` (roundings are the identity on the extended reals). -/
theorem projPay_apply (x0 : Vec Ideal S1024x256 .f32) (x1 : Vec Ideal S256x768 .f32) (x2 : Vec Ideal S768 .f32) (p : Fin 1024) (j : Fin 768) :
    k0_pay1 x0 x1 x2 (ix2 p j) = (∑ a : Fin 256, x0 (ix2 p a) * x1 (ix2 a j)) + x2 (ix1 j) := by
  unfold k0_pay1
  refine (truncf_apply (ψ := .bf16) _ bitsLt_bf16_f32 (ix2 p j)).trans ?_
  refine (addf_apply _ _ _).trans ?_
  refine congrArg₂ (· + ·) ?_ ?_
  · exact qkvDot_apply _ _ p j
  · refine (broadcastTo_1b_ab_apply _ _ p j).trans ?_
    exact shapeCast_a_1a_apply x2 _ 0 j

/-- The query, key and value tiles are its columns from 0, 256 and 512. -/
theorem pay2_apply (x0 : Vec Ideal S1024x256 .f32) (x1 : Vec Ideal S256x768 .f32) (x2 : Vec Ideal S768 .f32) (p : Fin 1024) (j : Fin 256) :
    k0_pay2 x0 x1 x2 (ix2 p j) = (∑ a : Fin 256, x0 (ix2 p a) * x1 (ix2 a (Attn.qcol j))) + x2 (ix1 (Attn.qcol j)) := by
  unfold k0_pay2
  refine (slice2_axis1_apply 0 _ _ p j (Attn.qcol j) ?_).trans (projPay_apply x0 x1 x2 p (Attn.qcol j))
  show j.val = 0 + j.val
  omega
theorem pay3_apply (x0 : Vec Ideal S1024x256 .f32) (x1 : Vec Ideal S256x768 .f32) (x2 : Vec Ideal S768 .f32) (p : Fin 1024) (j : Fin 256) :
    k0_pay3 x0 x1 x2 (ix2 p j) = (∑ a : Fin 256, x0 (ix2 p a) * x1 (ix2 a (Attn.kcol j))) + x2 (ix1 (Attn.kcol j)) := by
  unfold k0_pay3
  refine (slice2_axis1_apply 256 _ _ p j (Attn.kcol j) ?_).trans (projPay_apply x0 x1 x2 p (Attn.kcol j))
  show 256 + j.val = 256 + j.val
  rfl
theorem pay4_apply (x0 : Vec Ideal S1024x256 .f32) (x1 : Vec Ideal S256x768 .f32) (x2 : Vec Ideal S768 .f32) (p : Fin 1024) (j : Fin 256) :
    k0_pay4 x0 x1 x2 (ix2 p j) = (∑ a : Fin 256, x0 (ix2 p a) * x1 (ix2 a (Attn.vcol j))) + x2 (ix1 (Attn.vcol j)) := by
  unfold k0_pay4
  refine (slice2_axis1_apply 512 _ _ p j (Attn.vcol j) ?_).trans (projPay_apply x0 x1 x2 p (Attn.vcol j))
  show 512 + j.val = 512 + j.val
  rfl

/-! ## From a tile to the whole array

At grid point `t` the row-tiled windows (the activations, the positions, and the four outputs) sit at rows
`1024·t … 1024·t + 1023` of their arrays and at column offset zero; the weights and biases are whole. -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: a row-tiled window's block index is (t, 0), a whole window's is zero. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

theorem out_index : ∀ t : Fin cfg0.N,
    win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 4 := lt_of_lt_of_eq t.isLt N_0

variable (V : (c : Dev nD) → (b : Ref sig .tc) → Buf (Elt Ideal) ((c : Thread nD τ).loc b)) (c : Dev nD)

/-- The positions' tile at point `t` is rows `1024·t …` of the positions. -/
theorem peTile_apply (t : Fin cfg0.N) (p : Fin 1024) (a : Fin 16) (n : Fin 4096) (hn : n.val = t.val * 1024 + p.val) :
    (iblk0 V c 3 t : Vec Ideal S1024x16 .f32) (ix2 p a) = (V c main_arg1 : S4096x16.Idx → EReal) (ix2 n a) := by
  obtain ⟨-, -, -, -, -, e0, e1, -⟩ := tile_index t
  unfold iblk0
  rw [View.read_apply]
  show V c main_arg1 _ = V c main_arg1 _
  congr 1
  funext ax
  apply Fin.ext
  match ax with
  | ⟨0, _⟩ => show win0_3.index t (0 : Fin 2) * 1024 + 1 * p.val = n.val; rw [e0, hn]; omega
  | ⟨1, _⟩ => show win0_3.index t (1 : Fin 2) * 16 + 1 * a.val = a.val; rw [e1]; omega

/-- The positional weight's block is the weight. -/
theorem peW_apply (t : Fin cfg0.N) (a : Fin 16) (h : Fin 8) :
    (iblk0 V c 4 t : Vec Ideal S16x8 .f32) (ix2 a h) = (V c main_arg4 : S16x8.Idx → EReal) (ix2 a h) := by
  obtain ⟨-, -, -, -, -, -, -, e0, e1, -⟩ := tile_index t
  unfold iblk0
  rw [View.read_apply]
  show V c main_arg4 _ = V c main_arg4 _
  congr 1
  funext ax
  apply Fin.ext
  match ax with
  | ⟨0, _⟩ => show win0_4.index t (0 : Fin 2) * 16 + 1 * a.val = a.val; rw [e0]; omega
  | ⟨1, _⟩ => show win0_4.index t (1 : Fin 2) * 8 + 1 * h.val = h.val; rw [e1]; omega

/-- The positional bias's block is the bias. -/
theorem peB_apply (t : Fin cfg0.N) (h : Fin 8) :
    (iblk0 V c 5 t : Vec Ideal S8 .f32) (ix1 h) = (V c main_arg5 : S8.Idx → EReal) (ix1 h) := by
  obtain ⟨-, -, -, -, -, -, -, -, -, e0⟩ := tile_index t
  unfold iblk0
  rw [View.read_apply]
  show V c main_arg5 _ = V c main_arg5 _
  congr 1
  funext ax
  apply Fin.ext
  match ax with
  | ⟨0, _⟩ => show win0_5.index t (0 : Fin 1) * 8 + 1 * h.val = h.val; rw [e0]; omega

/-- What the body leaves in the positional output's buffer, at row `p` and head `h`. -/
theorem out9_apply (x0 : Vec Ideal S1024x256 .f32) (x1 : Vec Ideal S256x768 .f32) (x2 : Vec Ideal S768 .f32)
    (x3 : Vec Ideal S1024x16 .f32) (x4 : Vec Ideal S16x8 .f32) (x5 : Vec Ideal S8 .f32) (p : Fin 1024) (h : Fin 8) :
    out0_9 x0 x1 x2 x3 x4 x5 (ix2 p h) = (∑ a : Fin 16, x3 (ix2 p a) * x4 (ix2 a h)) + x5 (ix1 h) := by
  unfold out0_9
  rw [View.canon_unit_zero hz2]
  simp only [View.ld_unit_zero (S := S1024x16) hz2, View.ld_unit_zero (S := S16x8) hz2, View.ld_unit_zero (S := S8) hz1]
  exact pay5_apply x3 x4 x5 p h

/-- What point `t` writes back to the positional output is tile `t` of the positional projection. -/
theorem flushed9_eq (t : Fin cfg0.N) :
    (dat0 (F := Ideal) V c).flushed 9 t
      = ((cfg0.win 9).blk t).view.read (Elt Ideal) (Attn.KP (V c main_arg1) (V c main_arg4) (V c main_arg5)) := by
  show (cfg0.win 9).cut (grid0.coords t) ((dat0 V c).after 9 t) = _
  rw [after0_9]
  have ht := point_lt t
  obtain ⟨-, -, -, -, -, -, e0, e1⟩ := out_index t
  funext j
  obtain ⟨p, h, rfl⟩ : ∃ (p : Fin 1024) (h : Fin 8), j = ix2 p h := ⟨j 0, j 1, eq_ix2 j⟩
  have hemb : ((cfg0.win 9).blk t).view.emb (ix2 p h) = (ix2 (⟨t.val * 1024 + p.val, by omega⟩ : Fin 4096) h : S4096x8.Idx) := by
    funext ax
    apply Fin.ext
    match ax with
    | ⟨0, _⟩ => show win0_9.index t (0 : Fin 2) * 1024 + 1 * p.val = t.val * 1024 + p.val; rw [e0]; omega
    | ⟨1, _⟩ => show win0_9.index t (1 : Fin 2) * 8 + 1 * h.val = h.val; rw [e1]; omega
  show out0_9 (F := Ideal) (iblk0 V c 0 t) (iblk0 V c 1 t) (iblk0 V c 2 t) (iblk0 V c 3 t) (iblk0 V c 4 t) (iblk0 V c 5 t) (ix2 p h)
    = Attn.KP (V c main_arg1) (V c main_arg4) (V c main_arg5) (((cfg0.win 9).blk t).view.emb (ix2 p h))
  rw [hemb]
  refine (out9_apply (iblk0 V c 0 t) (iblk0 V c 1 t) (iblk0 V c 2 t) (iblk0 V c 3 t) (iblk0 V c 4 t) (iblk0 V c 5 t) p h).trans ?_
  show _ = Attn.peProj (V c main_arg1) (V c main_arg4) (V c main_arg5) ⟨t.val * 1024 + p.val, by omega⟩ h
  unfold Attn.peProj
  refine congrArg₂ (· + ·) (Finset.sum_congr rfl fun a _ => congrArg₂ (· * ·) ?_ ?_) ?_
  · exact peTile_apply V c t p a _ rfl
  · exact peW_apply V c t a h
  · exact peB_apply V c t h

/-- An index of the positional output is in point `t`'s block iff each coordinate is in the block's range. -/
theorem mem_blk9 (t : Fin cfg0.N) (i : S4096x8.Idx) :
    i ∈ ((cfg0.win 9).blk t).view.set ↔ ∀ a : Fin 2, win0_9.index t a * S1024x8.size a ≤ (i a).val ∧ (i a).val < win0_9.index t a * S1024x8.size a + S1024x8.size a := by
  show i ∈ ((View.whole main_v0_3).slice (win0_9.rect t)).set ↔ _
  rw [View.set_slice_whole, Rect.mem_set_unit]
  exact Iff.rfl

/-- Row `n` is in the block of point `n / 1024`. -/
theorem cover9 (i : S4096x8.Idx) : ∃ t : Fin cfg0.N, (cfg0.win 9).flush t = true ∧ i ∈ ((cfg0.win 9).blk t).view.set := by
  have hi0 : (i 0).val < 4096 := (i 0).isLt
  have hi1 : (i 1).val < 8 := (i 1).isLt
  have hN : cfg0.N = 4 := N_0
  let t : Fin cfg0.N := ⟨(i 0).val / 1024, by rw [hN]; omega⟩
  have htv : t.val = (i 0).val / 1024 := rfl
  obtain ⟨-, -, -, -, -, -, e0, e1⟩ := out_index t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; rw [e0, htv]; omega
  | ⟨1, _⟩ => show win0_9.index t (1 : Fin 2) * 8 ≤ (i 1).val ∧ (i 1).val < win0_9.index t (1 : Fin 2) * 8 + 8; rw [e1]; omega

/-- The activations' tile at point `t` is rows `1024·t …` of the activations. -/
theorem xTile_apply (t : Fin cfg0.N) (p : Fin 1024) (a : Fin 256) (n : Fin 4096) (hn : n.val = t.val * 1024 + p.val) :
    (iblk0 V c 0 t : Vec Ideal S1024x256 .f32) (ix2 p a) = (V c main_arg0 : S4096x256.Idx → EReal) (ix2 n a) := by
  obtain ⟨e0, e1, -⟩ := tile_index t
  unfold iblk0
  rw [View.read_apply]
  show V c main_arg0 _ = V c main_arg0 _
  congr 1
  funext ax
  apply Fin.ext
  match ax with
  | ⟨0, _⟩ => show win0_0.index t (0 : Fin 2) * 1024 + 1 * p.val = n.val; rw [e0, hn]; omega
  | ⟨1, _⟩ => show win0_0.index t (1 : Fin 2) * 256 + 1 * a.val = a.val; rw [e1]; omega

/-- The fused weight's block is the weight. -/
theorem qkvW_apply (t : Fin cfg0.N) (a : Fin 256) (j : Fin 768) :
    (iblk0 V c 1 t : Vec Ideal S256x768 .f32) (ix2 a j) = (V c main_arg2 : S256x768.Idx → EReal) (ix2 a j) := by
  obtain ⟨-, -, e0, e1, -⟩ := tile_index t
  unfold iblk0
  rw [View.read_apply]
  show V c main_arg2 _ = V c main_arg2 _
  congr 1
  funext ax
  apply Fin.ext
  match ax with
  | ⟨0, _⟩ => show win0_1.index t (0 : Fin 2) * 256 + 1 * a.val = a.val; rw [e0]; omega
  | ⟨1, _⟩ => show win0_1.index t (1 : Fin 2) * 768 + 1 * j.val = j.val; rw [e1]; omega

/-- The fused bias's block is the bias. -/
theorem qkvB_apply (t : Fin cfg0.N) (j : Fin 768) :
    (iblk0 V c 2 t : Vec Ideal S768 .f32) (ix1 j) = (V c main_arg3 : S768.Idx → EReal) (ix1 j) := by
  obtain ⟨-, -, -, -, e0, -⟩ := tile_index t
  unfold iblk0
  rw [View.read_apply]
  show V c main_arg3 _ = V c main_arg3 _
  congr 1
  funext ax
  apply Fin.ext
  match ax with
  | ⟨0, _⟩ => show win0_2.index t (0 : Fin 1) * 768 + 1 * j.val = j.val; rw [e0]; omega

/-- What the body leaves in the query output's buffer, at row `p` and column `j`. -/
theorem out6_apply (x0 : Vec Ideal S1024x256 .f32) (x1 : Vec Ideal S256x768 .f32) (x2 : Vec Ideal S768 .f32)
    (x3 : Vec Ideal S1024x16 .f32) (x4 : Vec Ideal S16x8 .f32) (x5 : Vec Ideal S8 .f32) (p : Fin 1024) (j : Fin 256) :
    out0_6 x0 x1 x2 x3 x4 x5 (ix2 p j) = (∑ a : Fin 256, x0 (ix2 p a) * x1 (ix2 a (Attn.qcol j))) + x2 (ix1 (Attn.qcol j)) := by
  unfold out0_6
  rw [View.canon_unit_zero hz2]
  simp only [View.ld_unit_zero (S := S1024x256) hz2, View.ld_unit_zero (S := S256x768) hz2, View.ld_unit_zero (S := S768) hz1]
  exact pay2_apply x0 x1 x2 p j

/-- What point `t` writes back to the query output is tile `t` of the query columns of the fused projection. -/
theorem flushed6_eq (t : Fin cfg0.N) :
    (dat0 (F := Ideal) V c).flushed 6 t
      = ((cfg0.win 6).blk t).view.read (Elt Ideal) (Attn.KQ (V c main_arg0) (V c main_arg2) (V c main_arg3)) := by
  show (cfg0.win 6).cut (grid0.coords t) ((dat0 V c).after 6 t) = _
  rw [after0_6]
  have ht := point_lt t
  obtain ⟨e0, e1, -⟩ := out_index t
  funext y
  obtain ⟨p, j, rfl⟩ : ∃ (p : Fin 1024) (j : Fin 256), y = ix2 p j := ⟨y 0, y 1, eq_ix2 y⟩
  have hemb : ((cfg0.win 6).blk t).view.emb (ix2 p j) = (ix2 (⟨t.val * 1024 + p.val, by omega⟩ : Fin 4096) j : S4096x256.Idx) := by
    funext ax
    apply Fin.ext
    match ax with
    | ⟨0, _⟩ => show win0_6.index t (0 : Fin 2) * 1024 + 1 * p.val = t.val * 1024 + p.val; rw [e0]; omega
    | ⟨1, _⟩ => show win0_6.index t (1 : Fin 2) * 256 + 1 * j.val = j.val; rw [e1]; omega
  show out0_6 (F := Ideal) (iblk0 V c 0 t) (iblk0 V c 1 t) (iblk0 V c 2 t) (iblk0 V c 3 t) (iblk0 V c 4 t) (iblk0 V c 5 t) (ix2 p j)
    = Attn.KQ (V c main_arg0) (V c main_arg2) (V c main_arg3) (((cfg0.win 6).blk t).view.emb (ix2 p j))
  rw [hemb]
  refine (out6_apply (iblk0 V c 0 t) (iblk0 V c 1 t) (iblk0 V c 2 t) (iblk0 V c 3 t) (iblk0 V c 4 t) (iblk0 V c 5 t) p j).trans ?_
  show _ = Attn.proj (V c main_arg0) (V c main_arg2) (V c main_arg3) ⟨t.val * 1024 + p.val, by omega⟩ (Attn.qcol j)
  unfold Attn.proj
  refine congrArg₂ (· + ·) (Finset.sum_congr rfl fun a _ => congrArg₂ (· * ·) ?_ ?_) ?_
  · exact xTile_apply V c t p a _ rfl
  · exact qkvW_apply V c t a (Attn.qcol j)
  · exact qkvB_apply V c t (Attn.qcol j)

/-- An index of the query output is in point `t`'s block iff each coordinate is in the block's range. -/
theorem mem_blk6 (t : Fin cfg0.N) (i : S4096x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_0).slice (win0_6.rect t)).set ↔ _
  rw [View.set_slice_whole, Rect.mem_set_unit]
  exact Iff.rfl

/-- Row `n` is in the block of point `n / 1024`. -/
theorem cover6 (i : S4096x256.Idx) : ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 4 := N_0
  let t : Fin cfg0.N := ⟨(i 0).val / 1024, by rw [hN]; omega⟩
  have htv : t.val = (i 0).val / 1024 := rfl
  obtain ⟨e0, e1, -⟩ := out_index t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0, htv]; omega
  | ⟨1, _⟩ => show win0_6.index t (1 : Fin 2) * 256 ≤ (i 1).val ∧ (i 1).val < win0_6.index t (1 : Fin 2) * 256 + 256; rw [e1]; omega

/-- What the body leaves in the key output's buffer, at row `p` and column `j`. -/
theorem out7_apply (x0 : Vec Ideal S1024x256 .f32) (x1 : Vec Ideal S256x768 .f32) (x2 : Vec Ideal S768 .f32)
    (x3 : Vec Ideal S1024x16 .f32) (x4 : Vec Ideal S16x8 .f32) (x5 : Vec Ideal S8 .f32) (p : Fin 1024) (j : Fin 256) :
    out0_7 x0 x1 x2 x3 x4 x5 (ix2 p j) = (∑ a : Fin 256, x0 (ix2 p a) * x1 (ix2 a (Attn.kcol j))) + x2 (ix1 (Attn.kcol j)) := by
  unfold out0_7
  rw [View.canon_unit_zero hz2]
  simp only [View.ld_unit_zero (S := S1024x256) hz2, View.ld_unit_zero (S := S256x768) hz2, View.ld_unit_zero (S := S768) hz1]
  exact pay3_apply x0 x1 x2 p j

/-- What point `t` writes back to the key output is tile `t` of the key columns of the fused projection. -/
theorem flushed7_eq (t : Fin cfg0.N) :
    (dat0 (F := Ideal) V c).flushed 7 t
      = ((cfg0.win 7).blk t).view.read (Elt Ideal) (Attn.KK (V c main_arg0) (V c main_arg2) (V c main_arg3)) := by
  show (cfg0.win 7).cut (grid0.coords t) ((dat0 V c).after 7 t) = _
  rw [after0_7]
  have ht := point_lt t
  obtain ⟨-, -, e0, e1, -⟩ := out_index t
  funext y
  obtain ⟨p, j, rfl⟩ : ∃ (p : Fin 1024) (j : Fin 256), y = ix2 p j := ⟨y 0, y 1, eq_ix2 y⟩
  have hemb : ((cfg0.win 7).blk t).view.emb (ix2 p j) = (ix2 (⟨t.val * 1024 + p.val, by omega⟩ : Fin 4096) j : S4096x256.Idx) := by
    funext ax
    apply Fin.ext
    match ax with
    | ⟨0, _⟩ => show win0_7.index t (0 : Fin 2) * 1024 + 1 * p.val = t.val * 1024 + p.val; rw [e0]; omega
    | ⟨1, _⟩ => show win0_7.index t (1 : Fin 2) * 256 + 1 * j.val = j.val; rw [e1]; omega
  show out0_7 (F := Ideal) (iblk0 V c 0 t) (iblk0 V c 1 t) (iblk0 V c 2 t) (iblk0 V c 3 t) (iblk0 V c 4 t) (iblk0 V c 5 t) (ix2 p j)
    = Attn.KK (V c main_arg0) (V c main_arg2) (V c main_arg3) (((cfg0.win 7).blk t).view.emb (ix2 p j))
  rw [hemb]
  refine (out7_apply (iblk0 V c 0 t) (iblk0 V c 1 t) (iblk0 V c 2 t) (iblk0 V c 3 t) (iblk0 V c 4 t) (iblk0 V c 5 t) p j).trans ?_
  show _ = Attn.proj (V c main_arg0) (V c main_arg2) (V c main_arg3) ⟨t.val * 1024 + p.val, by omega⟩ (Attn.kcol j)
  unfold Attn.proj
  refine congrArg₂ (· + ·) (Finset.sum_congr rfl fun a _ => congrArg₂ (· * ·) ?_ ?_) ?_
  · exact xTile_apply V c t p a _ rfl
  · exact qkvW_apply V c t a (Attn.kcol j)
  · exact qkvB_apply V c t (Attn.kcol j)

/-- An index of the key output is in point `t`'s block iff each coordinate is in the block's range. -/
theorem mem_blk7 (t : Fin cfg0.N) (i : S4096x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v0_1).slice (win0_7.rect t)).set ↔ _
  rw [View.set_slice_whole, Rect.mem_set_unit]
  exact Iff.rfl

/-- Row `n` is in the block of point `n / 1024`. -/
theorem cover7 (i : S4096x256.Idx) : ∃ t : Fin cfg0.N, (cfg0.win 7).flush t = true ∧ i ∈ ((cfg0.win 7).blk t).view.set := by
  have hi0 : (i 0).val < 4096 := (i 0).isLt
  have hi1 : (i 1).val < 256 := (i 1).isLt
  have hN : cfg0.N = 4 := N_0
  let t : Fin cfg0.N := ⟨(i 0).val / 1024, by rw [hN]; omega⟩
  have htv : t.val = (i 0).val / 1024 := rfl
  obtain ⟨-, -, e0, e1, -⟩ := out_index t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e0, htv]; omega
  | ⟨1, _⟩ => show win0_7.index t (1 : Fin 2) * 256 ≤ (i 1).val ∧ (i 1).val < win0_7.index t (1 : Fin 2) * 256 + 256; rw [e1]; omega

/-- What the body leaves in the value output's buffer, at row `p` and column `j`. -/
theorem out8_apply (x0 : Vec Ideal S1024x256 .f32) (x1 : Vec Ideal S256x768 .f32) (x2 : Vec Ideal S768 .f32)
    (x3 : Vec Ideal S1024x16 .f32) (x4 : Vec Ideal S16x8 .f32) (x5 : Vec Ideal S8 .f32) (p : Fin 1024) (j : Fin 256) :
    out0_8 x0 x1 x2 x3 x4 x5 (ix2 p j) = (∑ a : Fin 256, x0 (ix2 p a) * x1 (ix2 a (Attn.vcol j))) + x2 (ix1 (Attn.vcol j)) := by
  unfold out0_8
  rw [View.canon_unit_zero hz2]
  simp only [View.ld_unit_zero (S := S1024x256) hz2, View.ld_unit_zero (S := S256x768) hz2, View.ld_unit_zero (S := S768) hz1]
  exact pay4_apply x0 x1 x2 p j

/-- What point `t` writes back to the value output is tile `t` of the value columns of the fused projection. -/
theorem flushed8_eq (t : Fin cfg0.N) :
    (dat0 (F := Ideal) V c).flushed 8 t
      = ((cfg0.win 8).blk t).view.read (Elt Ideal) (Attn.KV (V c main_arg0) (V c main_arg2) (V c main_arg3)) := by
  show (cfg0.win 8).cut (grid0.coords t) ((dat0 V c).after 8 t) = _
  rw [after0_8]
  have ht := point_lt t
  obtain ⟨-, -, -, -, e0, e1, -⟩ := out_index t
  funext y
  obtain ⟨p, j, rfl⟩ : ∃ (p : Fin 1024) (j : Fin 256), y = ix2 p j := ⟨y 0, y 1, eq_ix2 y⟩
  have hemb : ((cfg0.win 8).blk t).view.emb (ix2 p j) = (ix2 (⟨t.val * 1024 + p.val, by omega⟩ : Fin 4096) j : S4096x256.Idx) := by
    funext ax
    apply Fin.ext
    match ax with
    | ⟨0, _⟩ => show win0_8.index t (0 : Fin 2) * 1024 + 1 * p.val = t.val * 1024 + p.val; rw [e0]; omega
    | ⟨1, _⟩ => show win0_8.index t (1 : Fin 2) * 256 + 1 * j.val = j.val; rw [e1]; omega
  show out0_8 (F := Ideal) (iblk0 V c 0 t) (iblk0 V c 1 t) (iblk0 V c 2 t) (iblk0 V c 3 t) (iblk0 V c 4 t) (iblk0 V c 5 t) (ix2 p j)
    = Attn.KV (V c main_arg0) (V c main_arg2) (V c main_arg3) (((cfg0.win 8).blk t).view.emb (ix2 p j))
  rw [hemb]
  refine (out8_apply (iblk0 V c 0 t) (iblk0 V c 1 t) (iblk0 V c 2 t) (iblk0 V c 3 t) (iblk0 V c 4 t) (iblk0 V c 5 t) p j).trans ?_
  show _ = Attn.proj (V c main_arg0) (V c main_arg2) (V c main_arg3) ⟨t.val * 1024 + p.val, by omega⟩ (Attn.vcol j)
  unfold Attn.proj
  refine congrArg₂ (· + ·) (Finset.sum_congr rfl fun a _ => congrArg₂ (· * ·) ?_ ?_) ?_
  · exact xTile_apply V c t p a _ rfl
  · exact qkvW_apply V c t a (Attn.vcol j)
  · exact qkvB_apply V c t (Attn.vcol j)

/-- An index of the value output is in point `t`'s block iff each coordinate is in the block's range. -/
theorem mem_blk8 (t : Fin cfg0.N) (i : S4096x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v0_2).slice (win0_8.rect t)).set ↔ _
  rw [View.set_slice_whole, Rect.mem_set_unit]
  exact Iff.rfl

/-- Row `n` is in the block of point `n / 1024`. -/
theorem cover8 (i : S4096x256.Idx) : ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 4 := N_0
  let t : Fin cfg0.N := ⟨(i 0).val / 1024, by rw [hN]; omega⟩
  have htv : t.val = (i 0).val / 1024 := rfl
  obtain ⟨-, -, -, -, e0, e1, -⟩ := out_index t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; rw [e0, htv]; omega
  | ⟨1, _⟩ => show win0_8.index t (1 : Fin 2) * 256 ≤ (i 1).val ∧ (i 1).val < win0_8.index t (1 : Fin 2) * 256 + 256; rw [e1]; omega

/-- After the projection call its four output arrays hold the query, key and value columns of the fused
    projection and the positional projection, of the arrays the call found. -/
theorem arr0_6 : (dat0 (F := Ideal) V c).arrAt 6 cfg0.N = Attn.KQ (V c main_arg0) (V c main_arg2) (V c main_arg3) := by
  exact (dat0 (F := Ideal) V c).arrAt_eq_of_cover 6 (Attn.KQ (V c main_arg0) (V c main_arg2) (V c main_arg3))
    (fun t _ => flushed6_eq V c t) (cover6)
theorem arr0_7 : (dat0 (F := Ideal) V c).arrAt 7 cfg0.N = Attn.KK (V c main_arg0) (V c main_arg2) (V c main_arg3) := by
  exact (dat0 (F := Ideal) V c).arrAt_eq_of_cover 7 (Attn.KK (V c main_arg0) (V c main_arg2) (V c main_arg3))
    (fun t _ => flushed7_eq V c t) (cover7)
theorem arr0_8 : (dat0 (F := Ideal) V c).arrAt 8 cfg0.N = Attn.KV (V c main_arg0) (V c main_arg2) (V c main_arg3) := by
  exact (dat0 (F := Ideal) V c).arrAt_eq_of_cover 8 (Attn.KV (V c main_arg0) (V c main_arg2) (V c main_arg3))
    (fun t _ => flushed8_eq V c t) (cover8)
theorem arr0_9 : (dat0 (F := Ideal) V c).arrAt 9 cfg0.N = Attn.KP (V c main_arg1) (V c main_arg4) (V c main_arg5) := by
  exact (dat0 (F := Ideal) V c).arrAt_eq_of_cover 9 (Attn.KP (V c main_arg1) (V c main_arg4) (V c main_arg5))
    (fun t _ => flushed9_eq V c t) (cover9)

end Cert.KernelIdeal.AttnValue

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.Heads.lean ====
import proofs.«430919_j21088289423720_3_alg».proof.Proof.Gen.KernelIdeal.Skeleton
import proofs.«430919_j21088289423720_3_alg».proof.Proof.Spec
import proofs.«430919_j21088289423720_3_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two products read at an index

The scores contract the second axis of both operands (a query row against a key row); the weighted sum contracts
the second axis of the weights against the first axis of the values. -/

theorem lhs_scores_0 (i : S256x4096.Idx) (c : dot_S256x32_S4096x32_S256x4096_1_1_0_0_n_n.contr.Idx) :
    (dot_S256x32_S4096x32_S256x4096_1_1_0_0_n_n.lhsIdx i c 0).val = (i 0).val := by
  unfold DotDims.lhsIdx
  rw [dif_neg (show ¬(0 : Fin S256x32.rank) ∈ dot_S256x32_S4096x32_S256x4096_1_1_0_0_n_n.lhsBatch by decide), dif_pos (show (0 : Fin S256x32.rank) ∈ dot_S256x32_S4096x32_S256x4096_1_1_0_0_n_n.lhsNonContracting by decide)]
  rfl
theorem lhs_scores_1 (i : S256x4096.Idx) (c : dot_S256x32_S4096x32_S256x4096_1_1_0_0_n_n.contr.Idx) :
    (dot_S256x32_S4096x32_S256x4096_1_1_0_0_n_n.lhsIdx i c 1).val = (c ⟨0, by decide⟩).val :=
  dot_S256x32_S4096x32_S256x4096_1_1_0_0_n_n.lhsIdx_val_of_single rfl i c
theorem rhs_scores_0 (i : S256x4096.Idx) (c : dot_S256x32_S4096x32_S256x4096_1_1_0_0_n_n.contr.Idx) :
    (dot_S256x32_S4096x32_S256x4096_1_1_0_0_n_n.rhsIdx i c 0).val = (i 1).val := by
  unfold DotDims.rhsIdx
  rw [dif_neg (show ¬(0 : Fin S4096x32.rank) ∈ dot_S256x32_S4096x32_S256x4096_1_1_0_0_n_n.rhsBatch by decide), dif_pos (show (0 : Fin S4096x32.rank) ∈ dot_S256x32_S4096x32_S256x4096_1_1_0_0_n_n.rhsNonContracting by decide)]
  rfl
theorem rhs_scores_1 (i : S256x4096.Idx) (c : dot_S256x32_S4096x32_S256x4096_1_1_0_0_n_n.contr.Idx) :
    (dot_S256x32_S4096x32_S256x4096_1_1_0_0_n_n.rhsIdx i c 1).val = (c ⟨0, by decide⟩).val :=
  dot_S256x32_S4096x32_S256x4096_1_1_0_0_n_n.rhsIdx_val_of_single rfl i c

/-- A query row against a key row: the product into a zero accumulator at `(r, m)` is the sum over the 32 entries. -/
theorem scores_apply (a : FVec Ideal S256x32 .bf16) (b : FVec Ideal S4096x32 .bf16) (r : Fin 256) (m : Fin 4096) :
    matmul dot_S256x32_S4096x32_S256x4096_1_1_0_0_n_n none a b (constant S256x4096 .f32 0x00000000#32) (ix2 r m)
      = ∑ e : Fin 32, a (ix2 r e) * b (ix2 m e) := by
  simp only [matmul]
  rw [Ideal.matmul_constant_zero_apply, ← Equiv.sum_comp (contrEquiv1 dot_S256x32_S4096x32_S256x4096_1_1_0_0_n_n 32 rfl rfl).symm]
  refine Finset.sum_congr rfl fun e _ => ?_
  have he := contrEquiv1_symm_val dot_S256x32_S4096x32_S256x4096_1_1_0_0_n_n 32 rfl rfl e
  have el : dot_S256x32_S4096x32_S256x4096_1_1_0_0_n_n.lhsIdx (ix2 r m) ((contrEquiv1 dot_S256x32_S4096x32_S256x4096_1_1_0_0_n_n 32 rfl rfl).symm e) = ix2 r e := funext fun a => Fin.ext (by
    match a with
    | ⟨0, _⟩ => exact lhs_scores_0 _ _
    | ⟨1, _⟩ => exact (lhs_scores_1 _ _).trans he)
  have er : dot_S256x32_S4096x32_S256x4096_1_1_0_0_n_n.rhsIdx (ix2 r m) ((contrEquiv1 dot_S256x32_S4096x32_S256x4096_1_1_0_0_n_n 32 rfl rfl).symm e) = ix2 m e := funext fun a => Fin.ext (by
    match a with
    | ⟨0, _⟩ => exact rhs_scores_0 _ _
    | ⟨1, _⟩ => exact (rhs_scores_1 _ _).trans he)
  rw [el, er]

theorem lhs_avg_0 (i : S256x32.Idx) (c : dot_S256x4096_S4096x32_S256x32_1_0_0_1_n_n.contr.Idx) :
    (dot_S256x4096_S4096x32_S256x32_1_0_0_1_n_n.lhsIdx i c 0).val = (i 0).val := by
  unfold DotDims.lhsIdx
  rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
  rfl
theorem lhs_avg_1 (i : S256x32.Idx) (c : dot_S256x4096_S4096x32_S256x32_1_0_0_1_n_n.contr.Idx) :
    (dot_S256x4096_S4096x32_S256x32_1_0_0_1_n_n.lhsIdx i c 1).val = (c ⟨0, by decide⟩).val :=
  dot_S256x4096_S4096x32_S256x32_1_0_0_1_n_n.lhsIdx_val_of_single rfl i c
theorem rhs_avg_0 (i : S256x32.Idx) (c : dot_S256x4096_S4096x32_S256x32_1_0_0_1_n_n.contr.Idx) :
    (dot_S256x4096_S4096x32_S256x32_1_0_0_1_n_n.rhsIdx i c 0).val = (c ⟨0, by decide⟩).val :=
  dot_S256x4096_S4096x32_S256x32_1_0_0_1_n_n.rhsIdx_val_of_single rfl i c
theorem rhs_avg_1 (i : S256x32.Idx) (c : dot_S256x4096_S4096x32_S256x32_1_0_0_1_n_n.contr.Idx) :
    (dot_S256x4096_S4096x32_S256x32_1_0_0_1_n_n.rhsIdx i c 1).val = (i 1).val := by
  unfold DotDims.rhsIdx
  rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
  rfl

/-- The weights of a query row against a column of the values: at `(r, d)` the sum over the 4096 key rows. -/
theorem avg_apply (a : FVec Ideal S256x4096 .bf16) (b : FVec Ideal S4096x32 .bf16) (r : Fin 256) (d : Fin 32) :
    matmul dot_S256x4096_S4096x32_S256x32_1_0_0_1_n_n none a b (constant S256x32 .f32 0x00000000#32) (ix2 r d)
      = ∑ m : Fin 4096, a (ix2 r m) * b (ix2 m d) := by
  simp only [matmul]
  rw [Ideal.matmul_constant_zero_apply, ← Equiv.sum_comp (contrEquiv1 dot_S256x4096_S4096x32_S256x32_1_0_0_1_n_n 4096 rfl rfl).symm]
  refine Finset.sum_congr rfl fun m _ => ?_
  have hm := contrEquiv1_symm_val dot_S256x4096_S4096x32_S256x32_1_0_0_1_n_n 4096 rfl rfl m
  have el : dot_S256x4096_S4096x32_S256x32_1_0_0_1_n_n.lhsIdx (ix2 r d) ((contrEquiv1 dot_S256x4096_S4096x32_S256x32_1_0_0_1_n_n 4096 rfl rfl).symm m) = ix2 r m := funext fun a => Fin.ext (by
    match a with
    | ⟨0, _⟩ => exact lhs_avg_0 _ _
    | ⟨1, _⟩ => exact (lhs_avg_1 _ _).trans hm)
  have er : dot_S256x4096_S4096x32_S256x32_1_0_0_1_n_n.rhsIdx (ix2 r d) ((contrEquiv1 dot_S256x4096_S4096x32_S256x32_1_0_0_1_n_n 4096 rfl rfl).symm m) = ix2 m d := funext fun a => Fin.ext (by
    match a with
    | ⟨0, _⟩ => exact (rhs_avg_0 _ _).trans hm
    | ⟨1, _⟩ => exact rhs_avg_1 _ _)
  rw [el, er]

/-! ## The softmax tail

Every head ends the same way: the bias row is taken off the scores, the row maximum off that, the exponentials
are summed along the row and multiplied into the values, and the product is divided by the row sum. -/

/-- The f32 pattern of `-∞` is the bottom extended real. -/
theorem negInf_eq_bot : Ideal.ofBits .f32 0xFF800000#32 = ⊥ := by simp [Ideal.ofBits, Ideal.ieee]

/-- A row `[1, 4096]` spread over 256 rows reads, at `(r, m)`, the row at `m`. -/
theorem rowBroadcast_apply (p : FVec Ideal S1x4096 .f32) (r : Fin 256) (m : Fin 4096) :
    broadcastTo S256x4096 p broadcasts_S1x4096_S256x4096 (ix2 r m) = p (ix2 (0 : Fin 1) m) :=
  broadcastTo_apply p broadcasts_S1x4096_S256x4096 (ix2 r m) (ix2 (0 : Fin 1) m) fun a => by
    match a with
    | ⟨0, _⟩ => rfl
    | ⟨1, _⟩ => rfl

/-- The maximum along a row, from `-∞`. -/
theorem rowMax_apply (t : FVec Ideal S256x4096 .f32) (hφ : FKind.Formats .f32)
    (hacc : (0xFF800000#32 : BitVec 32) = FKind.maximumf.neutral .f32 hφ) (r : Fin 256) :
    multiReduction .maximumf [1] S256 t 0xFF800000#32 reduces_S256x4096_S256 hφ hacc (ix1 r)
      = (Finset.univ : Finset (Fin 4096)).fold max ⊥ (fun m => t (ix2 r m)) := by
  refine (Ideal.multiReduction_maximumf_single t _ reduces_S256x4096_S256 hφ hacc (ix1 r)).trans ?_
  have e : (t ∘ reduces_S256x4096_S256.lift (ix1 r)) = fun m : Fin 4096 => t (ix2 r m) :=
    funext fun m => congrArg t (Keepdims.lift_row reduces_S256x4096_S256 r m)
  rw [e]
  exact congrArg (fun z => (Finset.univ : Finset (Fin 4096)).fold max z (fun m => t (ix2 r m))) negInf_eq_bot

/-- The sum along a row. -/
theorem rowSum_apply (t : FVec Ideal S256x4096 .f32) (hφ : FKind.Formats .f32)
    (hacc : (0x00000000#32 : BitVec 32) = FKind.add.neutral .f32 hφ) (r : Fin 256) :
    multiReduction .add [1] S256 t 0x00000000#32 reduces_S256x4096_S256 hφ hacc (ix1 r)
      = ∑ m : Fin 4096, t (ix2 r m) := by
  refine (Ideal.multiReduction_add_single t _ reduces_S256x4096_S256 hφ hacc (ix1 r)).trans ?_
  exact Finset.sum_congr rfl fun m _ => congrArg t (Keepdims.lift_row reduces_S256x4096_S256 r m)

/-- The scores less the bias row, less their row maximum kept as a column. -/
def centred (s : FVec Ideal S256x4096 .f32) (p : FVec Ideal S1x4096 .f32) : FVec Ideal S256x4096 .f32 :=
  subf (subf s (broadcastTo S256x4096 p broadcasts_S1x4096_S256x4096))
    (broadcastTo S256x4096
      (shapeCast S256x1
        (multiReduction .maximumf [1] S256 (subf s (broadcastTo S256x4096 p broadcasts_S1x4096_S256x4096)) 0xFF800000#32
          reduces_S256x4096_S256 (.inl rfl) rfl)
        shapeCasts_S256_S256x1)
      broadcasts_S256x1_S256x4096)

theorem centred_apply (s : FVec Ideal S256x4096 .f32) (p : FVec Ideal S1x4096 .f32) (r : Fin 256) (m : Fin 4096) :
    centred s p (ix2 r m)
      = (s (ix2 r m) - p (ix2 (0 : Fin 1) m))
          - (Finset.univ : Finset (Fin 4096)).fold max ⊥ (fun m' => s (ix2 r m') - p (ix2 (0 : Fin 1) m')) := by
  unfold centred
  rw [subf_apply, subf_apply, rowBroadcast_apply, Keepdims.keepdims_apply]
  refine congrArg (fun z => s (ix2 r m) - p (ix2 (0 : Fin 1) m) - z) ?_
  refine (rowMax_apply _ _ _ r).trans ?_
  simp only [subf_apply, rowBroadcast_apply]

/-- The exponentials of centred scores, weighted into the values and divided by their row sum kept as a column. -/
def avgOf (t : FVec Ideal S256x4096 .f32) (v : FVec Ideal S4096x32 .bf16) : FVec Ideal S256x32 .f32 :=
  divf
    (matmul dot_S256x4096_S4096x32_S256x32_1_0_0_1_n_n none (truncf .bf16 (exp t) bitsLt_bf16_f32) v (constant S256x32 .f32 0x00000000#32))
    (broadcastTo S256x32
      (shapeCast S256x1 (multiReduction .add [1] S256 (exp t) 0x00000000#32 reduces_S256x4096_S256 (.inl rfl) rfl)
        shapeCasts_S256_S256x1)
      broadcasts_S256x1_S256x32)

theorem avgOf_apply (t : FVec Ideal S256x4096 .f32) (v : FVec Ideal S4096x32 .bf16) (r : Fin 256) (d : Fin 32) :
    avgOf t v (ix2 r d)
      = Ideal.div (∑ m : Fin 4096, Ideal.exp (t (ix2 r m)) * v (ix2 m d)) (∑ m : Fin 4096, Ideal.exp (t (ix2 r m))) := by
  unfold avgOf
  rw [divf_apply, avg_apply, Keepdims.keepdims_apply]
  exact congrArg₂ Ideal.div rfl (rowSum_apply _ _ _ r)

/-- The tail of a head read at `(r, d)`: the softmax average of the value column `d` under the scores of row `r`
    less the bias row. -/
theorem tail_apply (s : FVec Ideal S256x4096 .f32) (p : FVec Ideal S1x4096 .f32) (v : FVec Ideal S4096x32 .bf16)
    (r : Fin 256) (d : Fin 32) :
    avgOf (centred s p) v (ix2 r d)
      = Attn.softAvg (fun m => s (ix2 r m) - p (ix2 (0 : Fin 1) m)) (fun m => v (ix2 m d)) := by
  rw [avgOf_apply]
  simp only [centred_apply]
  rfl

/-! ## A head

The query slice is widened, scaled by the one f32 literal and narrowed again (no rounding at the extended reals),
multiplied against the key slice, and the row of the positional projection that belongs to the head is the bias. -/

/-- The scaled query against the keys. -/
def scoresOf (q : FVec Ideal S256x32 .bf16) (k : FVec Ideal S4096x32 .bf16) : FVec Ideal S256x4096 .f32 :=
  matmul dot_S256x32_S4096x32_S256x4096_1_1_0_0_n_n none
    (truncf .bf16 (mulf (extf .f32 q bitsLt_bf16_f32) (broadcast S256x32 (Scalar.ofBits .f32 0x3E3504F3#32))) bitsLt_bf16_f32)
    k (constant S256x4096 .f32 0x00000000#32)

theorem scoresOf_apply (q : FVec Ideal S256x32 .bf16) (k : FVec Ideal S4096x32 .bf16) (r : Fin 256) (m : Fin 4096) :
    scoresOf q k (ix2 r m) = ∑ e : Fin 32, (q (ix2 r e) * Attn.sc) * k (ix2 m e) := by
  unfold scoresOf
  rw [scores_apply]
  rfl

/-- Row `h` of the transposed positional projection, cut out as a `[1, 4096]` slice, reads at `(0, m)` the
    projection at `(h, m)`. -/
theorem biasRow_apply (per : FVec Ideal S8x4096 .f32) (h : Fin 8) (off : Fin 2 → ℕ) (h0 : off 0 = h.val) (h1 : off 1 = 0)
    (ev : S8x4096.Slices off S1x4096) (m : Fin 4096) :
    extractStridedSlice S1x4096 off per ev (ix2 (0 : Fin 1) m) = per (ix2 h m) :=
  extractStridedSlice_apply off per ev (ix2 (0 : Fin 1) m) (ix2 h m) fun a => by
    match a with
    | ⟨0, _⟩ => show h.val = off 0 + 0; rw [h0, Nat.add_zero]
    | ⟨1, _⟩ => show m.val = off 1 + m.val; rw [h1, Nat.zero_add]

/-- One head, before the last narrowing, read at `(r, d)`. -/
theorem head_apply (per : FVec Ideal S8x4096 .f32) (q : FVec Ideal S256x32 .bf16) (k v : FVec Ideal S4096x32 .bf16)
    (r : Fin 256) (d : Fin 32) (h : Fin 8) (off : Fin 2 → ℕ) (h0 : off 0 = h.val) (h1 : off 1 = 0)
    (ev : S8x4096.Slices off S1x4096) :
    avgOf (centred (scoresOf q k) (extractStridedSlice S1x4096 off per ev)) v (ix2 r d)
      = Attn.headVal per h q k v r d := by
  rw [tail_apply]
  unfold Attn.headVal
  simp only [scoresOf_apply, biasRow_apply per h off h0 h1 ev]

/-! ## The eight heads

Each head's term, opened, is the same composition at its own row of the positional projection. -/

variable (per : Vec Ideal S8x4096 .f32) (q : Vec Ideal S256x32 .bf16) (k v : Vec Ideal S4096x32 .bf16) (r : Fin 256) (d : Fin 32)

/-- Head 0's stored tile is the softmax average of its slices. -/
theorem head0 : k1_pay3 (F := Ideal) per q k v (ix2 r d) = Attn.headVal per 0 q k v r d := by
  unfold k1_pay3 k1_pay2
  simp only [shapeCast_self]
  refine (truncf_apply (φ := .f32) (ψ := .bf16) _ bitsLt_bf16_f32 (ix2 r d)).trans ?_
  exact head_apply per q k v r d 0 ![0, 0] rfl rfl slices_S8x4096_o0_0_S1x4096
theorem head1 : k1_pay7 (F := Ideal) (k1_pay2 per) (k1_pay4 q) (k1_pay5 k) (k1_pay6 v) (constant S256x4096 .f32 0x00000000#32) (ix2 r d)
    = Attn.headVal per 1 q k v r d := by
  unfold k1_pay7 k1_pay2 k1_pay4 k1_pay5 k1_pay6
  simp only [shapeCast_self]
  refine (truncf_apply (φ := .f32) (ψ := .bf16) _ bitsLt_bf16_f32 (ix2 r d)).trans ?_
  exact head_apply per q k v r d 1 ![1, 0] rfl rfl slices_S8x4096_o1_0_S1x4096
theorem head2 : k1_pay8 (F := Ideal) (k1_pay2 per) q k v (ix2 r d) = Attn.headVal per 2 q k v r d := by
  unfold k1_pay8 k1_pay2
  simp only [shapeCast_self]
  refine (truncf_apply (φ := .f32) (ψ := .bf16) _ bitsLt_bf16_f32 (ix2 r d)).trans ?_
  exact head_apply per q k v r d 2 ![2, 0] rfl rfl slices_S8x4096_o2_0_S1x4096
theorem head3 : k1_pay10 (F := Ideal) (k1_pay2 per) (k1_pay9 q) k v (ix2 r d) = Attn.headVal per 3 q k v r d := by
  unfold k1_pay10 k1_pay2 k1_pay9
  simp only [shapeCast_self]
  refine (truncf_apply (φ := .f32) (ψ := .bf16) _ bitsLt_bf16_f32 (ix2 r d)).trans ?_
  exact head_apply per q k v r d 3 ![3, 0] rfl rfl slices_S8x4096_o3_0_S1x4096
theorem head4 : k1_pay13 (F := Ideal) (k1_pay11 v) (k1_pay12 (k1_pay2 per) q k) (ix2 r d) = Attn.headVal per 4 q k v r d := by
  unfold k1_pay13 k1_pay11 k1_pay12 k1_pay2
  simp only [shapeCast_self]
  refine (truncf_apply (φ := .f32) (ψ := .bf16) _ bitsLt_bf16_f32 (ix2 r d)).trans ?_
  exact head_apply per q k v r d 4 ![4, 0] rfl rfl slices_S8x4096_o4_0_S1x4096
theorem head5 : k1_pay14 (F := Ideal) (k1_pay2 per) q k v (ix2 r d) = Attn.headVal per 5 q k v r d := by
  unfold k1_pay14 k1_pay2
  simp only [shapeCast_self]
  refine (truncf_apply (φ := .f32) (ψ := .bf16) _ bitsLt_bf16_f32 (ix2 r d)).trans ?_
  exact head_apply per q k v r d 5 ![5, 0] rfl rfl slices_S8x4096_o5_0_S1x4096
theorem head6 : k1_pay17 (F := Ideal) (k1_pay2 per) (k1_pay15 q) (k1_pay16 k) v (ix2 r d) = Attn.headVal per 6 q k v r d := by
  unfold k1_pay17 k1_pay2 k1_pay15 k1_pay16
  simp only [shapeCast_self]
  refine (truncf_apply (φ := .f32) (ψ := .bf16) _ bitsLt_bf16_f32 (ix2 r d)).trans ?_
  exact head_apply per q k v r d 6 ![6, 0] rfl rfl slices_S8x4096_o6_0_S1x4096
theorem head7 : k1_pay18 (F := Ideal) (k1_pay2 per) q k v (ix2 r d) = Attn.headVal per 7 q k v r d := by
  unfold k1_pay18 k1_pay2
  simp only [shapeCast_self]
  exact head_apply per q k v r d 7 ![7, 0] rfl rfl slices_S8x4096_o7_0_S1x4096

end Cert.KernelIdeal.AttnValue

end
-- ==== Proof.Tile.lean ====
import proofs.«430919_j21088289423720_3_alg».proof.Proof.Gen.KernelIdeal.Frame
import proofs.«430919_j21088289423720_3_alg».proof.Proof.Heads
import proofs.«430919_j21088289423720_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## A band of 32 columns read through its rectangle

A head's query, key and value slices are the unit-stride rectangles of 32 columns at offset `32·h` of a
256-column array: entry `(r, e)` of the slice is entry `(r, 32·h + e)` of the array. -/

/-- The query tile's band at column offset `o`, read at `(r, e)`. -/
theorem ld_band256 (X : Vec Ideal S256x256 .bf16) (o : Nat)
    (inb : ∀ a, (![0, o] : Fin 2 → Nat) a + S256x32.size a ≤ S256x256.size a)
    (r : Fin 256) (e : Fin 32) (c : Fin 256) (hc : c.val = o + e.val) :
    View.ld X (Rect.unit (s := S256x256) ![0, o] S256x32.size inb) (ix2 r e) = X (ix2 r c) := by
  show X _ = X _
  refine congrArg X (funext fun a => Fin.ext ?_)
  match a with
  | ⟨0, _⟩ => show 0 + 1 * r.val = r.val; omega
  | ⟨1, _⟩ => show o + 1 * e.val = c.val; omega

/-- A key or value band at column offset `o`, read at `(m, e)`. -/
theorem ld_band4096 (X : Vec Ideal S4096x256 .bf16) (o : Nat)
    (inb : ∀ a, (![0, o] : Fin 2 → Nat) a + S4096x32.size a ≤ S4096x256.size a)
    (m : Fin 4096) (e : Fin 32) (c : Fin 256) (hc : c.val = o + e.val) :
    View.ld X (Rect.unit (s := S4096x256) ![0, o] S4096x32.size inb) (ix2 m e) = X (ix2 m c) := by
  show X _ = X _
  refine congrArg X (funext fun a => Fin.ext ?_)
  match a with
  | ⟨0, _⟩ => show 0 + 1 * m.val = m.val; omega
  | ⟨1, _⟩ => show o + 1 * e.val = c.val; omega

/-- One head computed from its three bands is that head computed from the query row and the whole key and
    value arrays: the two score functions and the two value columns agree entry by entry. -/
theorem headVal_band (x0 : Vec Ideal S256x256 .bf16) (x1 x2 : Vec Ideal S4096x256 .bf16) (x3 : Vec Ideal S8x4096 .f32)
    (h : Fin 8) (o : Nat) (ho : o = 32 * h.val)
    (inbq : ∀ a, (![0, o] : Fin 2 → Nat) a + S256x32.size a ≤ S256x256.size a)
    (inbk : ∀ a, (![0, o] : Fin 2 → Nat) a + S4096x32.size a ≤ S4096x256.size a)
    (r : Fin 256) (d : Fin 32) :
    Attn.headVal x3 h (View.ld x0 (Rect.unit (s := S256x256) ![0, o] S256x32.size inbq))
        (View.ld x1 (Rect.unit (s := S4096x256) ![0, o] S4096x32.size inbk))
        (View.ld x2 (Rect.unit (s := S4096x256) ![0, o] S4096x32.size inbk)) r d
      = Attn.kHead (fun e => x0 (ix2 r e)) x1 x2 x3 h d := by
  have hcol : ∀ e : Fin 32, (Attn.col h e).val = o + e.val := fun e => by rw [ho]; rfl
  unfold Attn.headVal Attn.kHead
  refine congrArg₂ Attn.softAvg (funext fun m => ?_) (funext fun m => ?_)
  · refine congrArg (· - x3 (ix2 h m)) (Finset.sum_congr rfl fun e _ => ?_)
    rw [ld_band256 x0 o inbq r e (Attn.col h e) (hcol e), ld_band4096 x1 o inbk m e (Attn.col h e) (hcol e)]
  · exact ld_band4096 x2 o inbk m d (Attn.col h d) (hcol d)

/-! ## The output projection at an index

The store's value is the eight heads' tiles laid side by side along the columns, multiplied by the output
projection into a zero accumulator, plus the bias row laid along every row. -/

/-- The eight 32-column pieces as a family over the piece number. -/
def pick (a0 a1 a2 a3 a4 a5 a6 a7 : S256x32.Idx → EReal) : Fin 8 → (S256x32.Idx → EReal) := fun n =>
  match n with
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7

/-- Eight 32-column pieces laid side by side, read at `(r, e)`: piece `e / 32` at `(r, e % 32)`. -/
theorem cat8_apply (a0 a1 a2 a3 a4 a5 a6 a7 : S256x32.Idx → EReal)
    (h : Shape.Concatenates (([⟨S256x32, a0⟩, ⟨S256x32, a1⟩, ⟨S256x32, a2⟩, ⟨S256x32, a3⟩, ⟨S256x32, a4⟩, ⟨S256x32, a5⟩,
      ⟨S256x32, a6⟩, ⟨S256x32, a7⟩] : List ((s : Shape) × (s.Idx → EReal))).map (·.1)) S256x256 1)
    (r : Fin 256) (e : Fin 256) :
    concatenate S256x256 1 [⟨S256x32, a0⟩, ⟨S256x32, a1⟩, ⟨S256x32, a2⟩, ⟨S256x32, a3⟩, ⟨S256x32, a4⟩, ⟨S256x32, a5⟩,
      ⟨S256x32, a6⟩, ⟨S256x32, a7⟩] h (ix2 r e) = pick a0 a1 a2 a3 a4 a5 a6 a7 (Attn.hd e) (ix2 r (Attn.dd e)) := by
  have hl : ([⟨S256x32, a0⟩, ⟨S256x32, a1⟩, ⟨S256x32, a2⟩, ⟨S256x32, a3⟩, ⟨S256x32, a4⟩, ⟨S256x32, a5⟩,
      ⟨S256x32, a6⟩, ⟨S256x32, a7⟩] : List ((s : Shape) × (s.Idx → EReal)))
      = List.ofFn fun n : Fin 8 => (⟨S256x32, pick a0 a1 a2 a3 a4 a5 a6 a7 n⟩ : (s : Shape) × (s.Idx → EReal)) := rfl
  revert h
  rw [hl]
  intro h
  refine concatenate_ofFn_apply (1 : Fin S256x256.rank) (pick a0 a1 a2 a3 a4 a5 a6 a7) h rfl 32 rfl (ix2 r e) (Attn.hd e) rfl
    (ix2 r (Attn.dd e)) rfl (fun b hb => ?_)
  match b with
  | ⟨0, _⟩ => rfl
  | ⟨1, _⟩ => exact absurd rfl hb

/-! The output projection's operand indices: the left operand at `(r, k)`, the right at `(k, j)`. -/

theorem lhs_outproj_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_outproj_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_outproj_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_outproj_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The product into a zero accumulator at `(r, j)`: the sum over the 256 columns `e` of the left operand at
    `(r, e)` times the right at `(e, j)`. -/
theorem outproj_apply (A W : FVec Ideal S256x256 .bf16) (r j : Fin 256) :
    matmul (F := Ideal) dot_S256x256_S256x256_S256x256_1_0_0_1_n_n none A W (constant S256x256 .f32 0x00000000#32) (ix2 r j)
      = ∑ e : Fin 256, A (ix2 r e) * W (ix2 e j) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r j) ((contrEquiv1 dot_S256x256_S256x256_S256x256_1_0_0_1_n_n 256 rfl rfl).symm k) = ix2 r k := funext fun a => Fin.ext (by
    match a with
    | ⟨0, _⟩ => exact lhs_outproj_0 _ _
    | ⟨1, _⟩ => exact (lhs_outproj_1 _ _).trans hk)
  have er : dot_S256x256_S256x256_S256x256_1_0_0_1_n_n.rhsIdx (ix2 r j) ((contrEquiv1 dot_S256x256_S256x256_S256x256_1_0_0_1_n_n 256 rfl rfl).symm k) = ix2 k j := funext fun a => Fin.ext (by
    match a with
    | ⟨0, _⟩ => exact (rhs_outproj_0 _ _).trans hk
    | ⟨1, _⟩ => exact rhs_outproj_1 _ _)
  rw [el, er]

/-- The stored value at `(r, j)`: the sum over the columns `e` of head `e / 32`'s tile at `(r, e % 32)` times
    the projection at `(e, j)`, plus the bias at `j`. -/
theorem pay1_apply (a0 a1 a2 a3 a4 a5 a6 : Vec Ideal S256x32 .bf16) (a7 : Vec Ideal S256x32 .f32)
    (W : Vec Ideal S256x256 .f32) (b : Vec Ideal S256 .f32) (r j : Fin 256) :
    k1_pay1 (F := Ideal) a0 a1 a2 a3 a4 a5 a6 a7 W b (ix2 r j)
      = (∑ e : Fin 256, pick a0 a1 a2 a3 a4 a5 a6 a7 (Attn.hd e) (ix2 r (Attn.dd e)) * W (ix2 e j)) + b (ix1 j) := by
  unfold k1_pay1
  refine (addf_apply _ _ _).trans ?_
  refine congrArg₂ (· + ·) ((outproj_apply _ _ r j).trans (Finset.sum_congr rfl fun e _ => ?_)) ?_
  · exact congrArg (· * W (ix2 e j)) (cat8_apply a0 a1 a2 a3 a4 a5 a6 a7 _ r e)
  · exact (broadcastTo_1b_ab_apply _ _ r j).trans (shapeCast_a_1a_apply b _ 0 j)

/-! ## The eight heads and the tile -/

/-- Each head's stored tile at `(r, d)` is that head of the first arrangement, computed from the tile's query
    row `r` and the whole key, value and positional arrays. -/
theorem heads_eq (x0 : Vec Ideal S256x256 .bf16) (x1 x2 : Vec Ideal S4096x256 .bf16) (x3 : Vec Ideal S8x4096 .f32)
    (r : Fin 256) (k : Fin 8) (d : Fin 32) :
    pick (k1_pay3 (F := Ideal) (View.ld x3 r1_0) (View.ld x0 r1_1) (View.ld x1 r1_2) (View.ld x2 r1_2))
      (k1_pay7 (F := Ideal) (k1_pay2 (View.ld x3 r1_0)) (k1_pay4 (View.ld x0 r1_3)) (k1_pay5 (View.ld x1 r1_4)) (k1_pay6 (View.ld x2 r1_4)) (constant S256x4096 .f32 0x00000000#32))
      (k1_pay8 (F := Ideal) (k1_pay2 (View.ld x3 r1_0)) (View.ld x0 r1_5) (View.ld x1 r1_6) (View.ld x2 r1_6))
      (k1_pay10 (F := Ideal) (k1_pay2 (View.ld x3 r1_0)) (k1_pay9 (View.ld x0 r1_7)) (View.ld x1 r1_8) (View.ld x2 r1_8))
      (k1_pay13 (F := Ideal) (k1_pay11 (View.ld x2 r1_10)) (k1_pay12 (k1_pay2 (View.ld x3 r1_0)) (View.ld x0 r1_9) (View.ld x1 r1_10)))
      (k1_pay14 (F := Ideal) (k1_pay2 (View.ld x3 r1_0)) (View.ld x0 r1_11) (View.ld x1 r1_12) (View.ld x2 r1_12))
      (k1_pay17 (F := Ideal) (k1_pay2 (View.ld x3 r1_0)) (k1_pay15 (View.ld x0 r1_13)) (k1_pay16 (View.ld x1 r1_14)) (View.ld x2 r1_14))
      (k1_pay18 (F := Ideal) (k1_pay2 (View.ld x3 r1_0)) (View.ld x0 r1_15) (View.ld x1 r1_16) (View.ld x2 r1_16))
      k (ix2 r d)
      = Attn.kHead (fun e => x0 (ix2 r e)) x1 x2 x3 k d := by
  have hz : (![0, 0] : Fin 2 → Nat) = fun _ => 0 := funext fun a => by
    match a with
    | ⟨0, _⟩ => rfl
    | ⟨1, _⟩ => rfl
  have e3 : View.ld x3 r1_0 = x3 := View.ld_unit_zero (S := S8x4096) hz _ x3
  rw [e3]
  match k with
  | ⟨0, _⟩ => exact (head0 x3 _ _ _ r d).trans (headVal_band x0 x1 x2 x3 0 0 rfl _ _ r d)
  | ⟨1, _⟩ => exact (head1 x3 _ _ _ r d).trans (headVal_band x0 x1 x2 x3 1 32 rfl _ _ r d)
  | ⟨2, _⟩ => exact (head2 x3 _ _ _ r d).trans (headVal_band x0 x1 x2 x3 2 64 rfl _ _ r d)
  | ⟨3, _⟩ => exact (head3 x3 _ _ _ r d).trans (headVal_band x0 x1 x2 x3 3 96 rfl _ _ r d)
  | ⟨4, _⟩ => exact (head4 x3 _ _ _ r d).trans (headVal_band x0 x1 x2 x3 4 128 rfl _ _ r d)
  | ⟨5, _⟩ => exact (head5 x3 _ _ _ r d).trans (headVal_band x0 x1 x2 x3 5 160 rfl _ _ r d)
  | ⟨6, _⟩ => exact (head6 x3 _ _ _ r d).trans (headVal_band x0 x1 x2 x3 6 192 rfl _ _ r d)
  | ⟨7, _⟩ => exact (head7 x3 _ _ _ r d).trans (headVal_band x0 x1 x2 x3 7 224 rfl _ _ r d)

/-- What a grid point of the attention call leaves in its output block: the 256 query rows of the tile against
    the whole key, value, bias and output-projection arrays. -/
theorem out1_6_eq (x0 : Vec Ideal S256x256 .bf16) (x1 x2 : Vec Ideal S4096x256 .bf16) (x3 : Vec Ideal S8x4096 .f32)
    (x4 : Vec Ideal S256x256 .f32) (x5 : Vec Ideal S256 .f32) :
    out1_6 (F := Ideal) x0 x1 x2 x3 x4 x5 = Attn.attnTile x0 x1 x2 x3 x4 x5 := by
  have hz : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  funext y
  obtain ⟨r, j, rfl⟩ : ∃ (r : Fin 256) (j : Fin 256), y = ix2 r j := ⟨_, _, eq_ix2 y⟩
  unfold out1_6
  refine (congrFun (View.canon_unit_zero (S := S256x256) hz _ _) (ix2 r j)).trans ?_
  refine (pay1_apply _ _ _ _ _ _ _ _ _ _ r j).trans ?_
  rw [View.ld_unit_zero (S := S256x256) hz _ x4, View.ld_unit_zero (S := S256) hz1 _ x5]
  show _ = Attn.kRow (fun e => x0 (ix2 r e)) x1 x2 x3 x4 x5 j
  unfold Attn.kRow
  refine congrArg (· + x5 (ix1 j)) (Finset.sum_congr rfl fun e _ => ?_)
  exact congrArg (· * x4 (ix2 e j)) (heads_eq x0 x1 x2 x3 r (Attn.hd e) (Attn.dd e))

end Cert.KernelIdeal.AttnValue

end
-- ==== Proof.Reg1.lean ====
import proofs.«430919_j21088289423720_3_alg».proof.Proof.Gen.KernelIdeal.Frame
import proofs.«430919_j21088289423720_3_alg».proof.Proof.Tile
import proofs.«430919_j21088289423720_3_alg».proof.Proof.Spec

noncomputable section

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b)) (c : Dev nD)

/-- The index maps of the attention call over its sixteen grid points: the query and the result advance by one
    tile of 256 rows per point, and every other window is its whole array at every point. -/
theorem attn_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The key window's block at any point is the whole key array. -/
theorem attn_keys_blk (t : Fin cfg1.N) : (iblk1 (F := Ideal) V c 1 t : Vec Ideal S4096x256 .bf16) = V c main_v0_1 := by
  obtain ⟨-, -, e0, e1, -⟩ := attn_idx_facts t
  funext y
  unfold iblk1
  rw [View.read_apply]
  show V c main_v0_1 (((cfg1.win 1).blk t).view.emb y) = V c main_v0_1 y
  congr 1
  funext a; apply Fin.ext
  match a with
  | ⟨0, _⟩ => show win1_1.index t (0 : Fin 2) * 4096 + 1 * (y 0).val = (y 0).val; omega
  | ⟨1, _⟩ => show win1_1.index t (1 : Fin 2) * 256 + 1 * (y 1).val = (y 1).val; omega

/-- The value window's block at any point is the whole value array. -/
theorem attn_values_blk (t : Fin cfg1.N) : (iblk1 (F := Ideal) V c 2 t : Vec Ideal S4096x256 .bf16) = V c main_v0_2 := by
  obtain ⟨-, -, -, -, e0, e1, -⟩ := attn_idx_facts t
  funext y
  unfold iblk1
  rw [View.read_apply]
  show V c main_v0_2 (((cfg1.win 2).blk t).view.emb y) = V c main_v0_2 y
  congr 1
  funext a; apply Fin.ext
  match a with
  | ⟨0, _⟩ => show win1_2.index t (0 : Fin 2) * 4096 + 1 * (y 0).val = (y 0).val; omega
  | ⟨1, _⟩ => show win1_2.index t (1 : Fin 2) * 256 + 1 * (y 1).val = (y 1).val; omega

/-- The positional-bias window's block at any point is the whole transposed bias array. -/
theorem attn_posbias_blk (t : Fin cfg1.N) : (iblk1 (F := Ideal) V c 3 t : Vec Ideal S8x4096 .f32) = V c main_v1 := by
  obtain ⟨-, -, -, -, -, -, e0, e1, -⟩ := attn_idx_facts t
  funext y
  unfold iblk1
  rw [View.read_apply]
  show V c main_v1 (((cfg1.win 3).blk t).view.emb y) = V c main_v1 y
  congr 1
  funext a; apply Fin.ext
  match a with
  | ⟨0, _⟩ => show win1_3.index t (0 : Fin 2) * 8 + 1 * (y 0).val = (y 0).val; omega
  | ⟨1, _⟩ => show win1_3.index t (1 : Fin 2) * 4096 + 1 * (y 1).val = (y 1).val; omega

/-- The output-projection weight window's block at any point is the whole weight array. -/
theorem attn_wout_blk (t : Fin cfg1.N) : (iblk1 (F := Ideal) V c 4 t : Vec Ideal S256x256 .f32) = V c main_arg6 := by
  obtain ⟨-, -, -, -, -, -, -, -, e0, e1, -⟩ := attn_idx_facts t
  funext y
  unfold iblk1
  rw [View.read_apply]
  show V c main_arg6 (((cfg1.win 4).blk t).view.emb y) = V c main_arg6 y
  congr 1
  funext a; apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The output-projection bias window's block at any point is the whole bias vector. -/
theorem attn_bout_blk (t : Fin cfg1.N) : (iblk1 (F := Ideal) V c 5 t : Vec Ideal S256 .f32) = V c main_arg7 := by
  obtain ⟨-, -, -, -, -, -, -, -, -, -, e0, -⟩ := attn_idx_facts t
  funext y
  unfold iblk1
  rw [View.read_apply]
  show V c main_arg7 (((cfg1.win 5).blk t).view.emb y) = V c main_arg7 y
  congr 1
  funext a; apply Fin.ext
  match a with
  | ⟨0, _⟩ => show win1_5.index t (0 : Fin 1) * 256 + 1 * (y 0).val = (y 0).val; omega

/-- The query window's block at point `t` is rows `256·t … 256·t + 255` of the query array. -/
theorem attn_query_blk_apply (t : Fin cfg1.N) (y : S256x256.Idx) (k : S4096x256.Idx)
    (hk0 : (k 0).val = 256 * t.val + (y 0).val) (hk1 : (k 1).val = (y 1).val) :
    (iblk1 (F := Ideal) V c 0 t : Vec Ideal S256x256 .bf16) y = (V c main_v0_0 : S4096x256.Idx → EReal) k := by
  obtain ⟨e0, e1, -⟩ := attn_idx_facts t
  unfold iblk1
  rw [View.read_apply]
  show V c main_v0_0 (((cfg1.win 0).blk t).view.emb y) = V c main_v0_0 k
  congr 1
  funext a; apply Fin.ext
  match a with
  | ⟨0, _⟩ => show win1_0.index t (0 : Fin 2) * 256 + 1 * (y 0).val = (k 0).val; omega
  | ⟨1, _⟩ => show win1_0.index t (1 : Fin 2) * 256 + 1 * (y 1).val = (k 1).val; omega

/-- A tile of query rows and the whole query array give the same output row wherever the tile's row is the
    array's row and the columns agree. -/
theorem attnTile_eq_attnOut_at (q : Attn.A2 256 256) (Q K W : Attn.A2 4096 256) (Pt : Attn.A2 8 4096) (Wout : Attn.A2 256 256)
    (bout : Attn.A1 256) (y : S256x256.Idx) (i : S4096x256.Idx)
    (hq : ∀ e : Fin 256, q (ix2 (Attn.c0 y) e) = Q (ix2 (Attn.c0 i) e)) (h1 : (y 1).val = (i 1).val) :
    Attn.attnTile q K W Pt Wout bout y = Attn.attnOut Q K W Pt Wout bout i := by
  show Attn.kRow (fun e => q (ix2 (Attn.c0 y) e)) K W Pt Wout bout (Attn.c1 y)
    = Attn.kRow (fun e => Q (ix2 (Attn.c0 i) e)) K W Pt Wout bout (Attn.c1 i)
  rw [show (fun e => q (ix2 (Attn.c0 y) e)) = (fun e => Q (ix2 (Attn.c0 i) e)) from funext hq,
    show Attn.c1 y = Attn.c1 i from Fin.ext h1]

/-- What point `t` writes back is block `t` of the whole result. -/
theorem attn_flushed_eq (t : Fin cfg1.N) :
    (dat1 (F := Ideal) V c).flushed 6 t = ((cfg1.win 6).blk t).view.read (Elt Ideal)
      (Attn.attnOut (V c main_v0_0) (V c main_v0_1) (V c main_v0_2) (V c main_v1) (V c main_arg6) (V c main_arg7)) := by
  show (cfg1.win 6).cut (grid1.coords t) ((dat1 V c).after 6 t) = _
  rw [after1_6, out1_6_eq, attn_keys_blk, attn_values_blk, attn_posbias_blk, attn_wout_blk, attn_bout_blk]
  obtain ⟨-, -, -, -, -, -, -, -, -, -, -, e0, e1⟩ := attn_idx_facts t
  funext j
  show Attn.attnTile (iblk1 V c 0 t) (V c main_v0_1) (V c main_v0_2) (V c main_v1) (V c main_arg6) (V c main_arg7) ((cfg1.win 6).xinj (grid1.coords t) j)
    = Attn.attnOut (V c main_v0_0) (V c main_v0_1) (V c main_v0_2) (V c main_v1) (V c main_arg6) (V c main_arg7) (((cfg1.win 6).blk t).view.emb j)
  refine attnTile_eq_attnOut_at _ _ _ _ _ _ _ _ _ (fun e => ?_) ?_
  · refine attn_query_blk_apply V c t _ _ ?_ ?_
    · show win1_6.index t (0 : Fin 2) * 256 + 1 * (j 0).val = 256 * t.val + (j 0).val
      omega
    · rfl
  · show (j 1).val = win1_6.index t (1 : Fin 2) * 256 + 1 * (j 1).val
    omega

/-- An index of the result array is in point `t`'s block iff each coordinate is in the block's range on its axis. -/
theorem attn_mem_blk (t : Fin cfg1.N) (i : S4096x256.Idx) :
    i ∈ ((cfg1.win 6).blk t).view.set ↔ ∀ a : Fin 2, win1_6.index t a * S256x256.size a ≤ (i a).val ∧ (i a).val < win1_6.index t a * S256x256.size a + S256x256.size a := by
  show i ∈ ((View.whole main_v2).slice (win1_6.rect t)).set ↔ _
  rw [View.set_slice_whole, Rect.mem_set_unit]
  exact Iff.rfl

/-- Every index of the result array is in some point's block: row `n` is in the block of point `n / 256`. -/
theorem attn_cover (i : S4096x256.Idx) :
    ∃ t : Fin cfg1.N, (cfg1.win 6).flush t = true ∧ i ∈ ((cfg1.win 6).blk t).view.set := by
  have hi0 : (i 0).val < 4096 := idx2_lt0 i
  have hi1 : (i 1).val < 256 := idx2_lt1 i
  have hN : cfg1.N = 16 := N_1
  obtain ⟨t, ht⟩ : ∃ t : Fin cfg1.N, t.val = (i 0).val / 256 := ⟨⟨(i 0).val / 256, by rw [hN]; omega⟩, rfl⟩
  obtain ⟨-, -, -, -, -, -, -, -, -, -, -, e0, e1⟩ := attn_idx_facts t
  refine ⟨t, flush1_6 t, ?_⟩
  rw [attn_mem_blk]
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 256 ≤ (i 1).val ∧ (i 1).val < win1_6.index t (1 : Fin 2) * 256 + 256; omega

/-- After the attention call its output array holds, row by row, the first arrangement of the arrays it found. -/
theorem arr1_6 : (dat1 (F := Ideal) V c).arrAt 6 cfg1.N
    = Attn.attnOut (V c main_v0_0) (V c main_v0_1) (V c main_v0_2) (V c main_v1) (V c main_arg6) (V c main_arg7) := by
  exact (dat1 (F := Ideal) V c).arrAt_eq_of_cover 6
    (Attn.attnOut (V c main_v0_0) (V c main_v0_1) (V c main_v0_2) (V c main_v1) (V c main_arg6) (V c main_arg7))
    (fun t _ => attn_flushed_eq V c t) attn_cover

end Cert.KernelIdeal.AttnValue

end
-- ==== Proof.Chain.lean ====
import proofs.«430919_j21088289423720_3_alg».proof.Proof.Gen.KernelIdeal.Frame
import proofs.«430919_j21088289423720_3_alg».proof.Proof.Reg0
import proofs.«430919_j21088289423720_3_alg».proof.Proof.Reg1
import proofs.«430919_j21088289423720_3_alg».proof.Proof.Spec
import Idealize.ShloMosaic.Lib.StableHlo.Run
import Idealize.ShloMosaic.Lib.Pipeline.Value

noncomputable section

/-!
  The result array of the whole program, read back to the launch memory.

  The program is: the projection call (writes the query, key, value arrays and the positional projection), one
  host transpose of the positional projection, the attention call (writes the result). The contents at the last
  boundary at the result array are what the attention call leaves, of the arrays it finds; those are what the
  projection call left (the transpose in between writes only its own buffer) and the transposed positional
  projection; and the projection call found the launch memory.
-/

namespace Cert.KernelIdeal.AttnValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- The attention call finds the query array the projection call left. -/
theorem entry_q : V2 m ρ c main_v0_0
    = Attn.KQ (m ((c : Thread nD τ).loc main_arg0)) (m ((c : Thread nD τ).loc main_arg2)) (m ((c : Thread nD τ).loc main_arg3)) :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
      simp only [hostOps1, List.Forall, StableHlo.unary_writes, Finset.mem_singleton]
      exact StableHlo.devRef_ne_of_ne (by decide)))
    _ = (dat0 (V0 m ρ) c).arrAt 6 cfg0.N := W1_arr m ρ c 6
    _ = _ := arr0_6 (V0 m ρ) c

/-- … the key array … -/
theorem entry_k : V2 m ρ c main_v0_1
    = Attn.KK (m ((c : Thread nD τ).loc main_arg0)) (m ((c : Thread nD τ).loc main_arg2)) (m ((c : Thread nD τ).loc main_arg3)) :=
  calc W2 m ρ c (Proc.devRef .tc main_v0_1)
    _ = W1 m ρ c (Proc.devRef .tc main_v0_1) := StableHlo.after_of_forall_not_mem (b := Proc.devRef .tc main_v0_1) _ _ (List.forall_iff_forall_mem.mp (by
      simp only [hostOps1, List.Forall, StableHlo.unary_writes, Finset.mem_singleton]
      exact StableHlo.devRef_ne_of_ne (by decide)))
    _ = (dat0 (V0 m ρ) c).arrAt 7 cfg0.N := W1_arr m ρ c 7
    _ = _ := arr0_7 (V0 m ρ) c

/-- … the value array … -/
theorem entry_v : V2 m ρ c main_v0_2
    = Attn.KV (m ((c : Thread nD τ).loc main_arg0)) (m ((c : Thread nD τ).loc main_arg2)) (m ((c : Thread nD τ).loc main_arg3)) :=
  calc W2 m ρ c (Proc.devRef .tc main_v0_2)
    _ = W1 m ρ c (Proc.devRef .tc main_v0_2) := StableHlo.after_of_forall_not_mem (b := Proc.devRef .tc main_v0_2) _ _ (List.forall_iff_forall_mem.mp (by
      simp only [hostOps1, List.Forall, StableHlo.unary_writes, Finset.mem_singleton]
      exact StableHlo.devRef_ne_of_ne (by decide)))
    _ = (dat0 (V0 m ρ) c).arrAt 8 cfg0.N := W1_arr m ρ c 8
    _ = _ := arr0_8 (V0 m ρ) c

/-- The projection call leaves the positional projection in its fourth output. -/
theorem exit_p : W1 m ρ c (Proc.devRef .tc main_v0_3)
    = Attn.KP (m ((c : Thread nD τ).loc main_arg1)) (m ((c : Thread nD τ).loc main_arg4)) (m ((c : Thread nD τ).loc main_arg5)) :=
  (W1_arr m ρ c 9).trans (arr0_9 (V0 m ρ) c)

/-- … and the attention call finds its transpose: entry (h, n) is the projection at (n, h). -/
theorem entry_pt : V2 m ρ c main_v1
    = Attn.KPt (m ((c : Thread nD τ).loc main_arg1)) (m ((c : Thread nD τ).loc main_arg4)) (m ((c : Thread nD τ).loc main_arg5)) := by
  have e : W2 m ρ c (Proc.devRef .tc main_v1)
      = transpose S8x4096 [1, 0] (W1 m ρ c (Proc.devRef .tc main_v0_3)) transposes_S4096x8_S8x4096_1_0 := by
    show StableHlo.after hostOps1 (W1 m ρ c) (Proc.devRef .tc main_v1) = _
    after_results
  show W2 m ρ c (Proc.devRef .tc main_v1) = _
  rw [e, exit_p]
  funext i
  refine (transpose_apply [1, 0] _ transposes_S4096x8_S8x4096_1_0 i (ix2 (Attn.c1 i) (Attn.c0 i)) fun b => ?_).trans ?_
  · match b with
    | ⟨0, _⟩ => rfl
    | ⟨1, _⟩ => rfl
  · rfl

/-- The output projection's weight and bias are the launch memory's: nothing before the attention call writes them. -/
theorem entry_wout : V2 m ρ c main_arg6 = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
      simp only [hostOps1, List.Forall, StableHlo.unary_writes, Finset.mem_singleton]
      exact StableHlo.devRef_ne_of_ne (by decide)))
    _ = W0 m ρ c (Proc.devRef .tc main_arg6) := W1_of_ne m ρ c main_arg6 (by decide)
    _ = _ := rfl

theorem entry_bout : V2 m ρ c main_arg7 = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
      simp only [hostOps1, List.Forall, StableHlo.unary_writes, Finset.mem_singleton]
      exact StableHlo.devRef_ne_of_ne (by decide)))
    _ = W0 m ρ c (Proc.devRef .tc main_arg7) := W1_of_ne m ρ c main_arg7 (by decide)
    _ = _ := rfl

/-- The last boundary's contents at the result array: the first arrangement of the launch memory's arguments. -/
theorem result_eq : W3 m ρ c (Proc.devRef .tc main_v2)
    = Attn.KOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W3_arr m ρ c 6).trans ((arr1_6 (V2 m ρ) c).trans ?_)
  rw [entry_q, entry_k, entry_v, entry_pt, entry_wout, entry_bout]
  rfl

end Cert.KernelIdeal.AttnValue

end
-- ==== Proof.RefSide.lean ====
import proofs.«430919_j21088289423720_3_alg».proof.Proof.Gen.ReferenceIdeal.Run
import proofs.«430919_j21088289423720_3_alg».proof.Proof.Gen.ReferenceIdeal.Read
import proofs.«430919_j21088289423720_3_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

section Stages
variable (x0 : (⟨S4096x256, .f32⟩ : BufTy).Contents (Elt Ideal)) (x1 : (⟨S4096x16, .f32⟩ : BufTy).Contents (Elt Ideal))
    (x2 : (⟨S256x768, .f32⟩ : BufTy).Contents (Elt Ideal)) (x3 : (⟨S768, .f32⟩ : BufTy).Contents (Elt Ideal))
    (x4 : (⟨S16x8, .f32⟩ : BufTy).Contents (Elt Ideal)) (x5 : (⟨S8, .f32⟩ : BufTy).Contents (Elt Ideal))
    (x6 : (⟨S256x256, .f32⟩ : BufTy).Contents (Elt Ideal)) (x7 : (⟨S256, .f32⟩ : BufTy).Contents (Elt Ideal))

/-- The fused projection at row `n`, column `j`. -/
theorem v3_at (n : Fin 4096) (j : Fin 768) :
    Read.val_main_v3 (F := Ideal) x0 x2 x3 (ix2 n j) = Attn.proj x0 x2 x3 n j := by
  rw [Read.val_main_v3_apply, Read.val_main_v0_apply, Read.val_main_v2_apply, Read.val_main_v1_apply]
  have el : ∀ k : Fin 256, Read.lidx_main_v0 (ix2 n j) k = ix2 n k := fun k =>
    funext fun a => Fin.ext (by match a with | ⟨0, _⟩ => rfl | ⟨1, _⟩ => rfl)
  have er : ∀ k : Fin 256, Read.ridx_main_v0 (ix2 n j) k = ix2 k j := fun k =>
    funext fun a => Fin.ext (by match a with | ⟨0, _⟩ => rfl | ⟨1, _⟩ => rfl)
  have eb : Read.idx_main_v1 (Read.idx_main_v2 (ix2 n j)) = ix1 j :=
    funext fun a => Fin.ext (by match a with | ⟨0, _⟩ => rfl)
  simp only [el, er, eb, Ideal.addf_def]
  rfl

/-- The reshaped and transposed projection: part `t` (query, key, value), head `h`, row `n`, entry `e` is column
    `256·t + 32·h + e` of row `n`. -/
theorem v5_at (t : Fin 3) (h : Fin 8) (n : Fin 4096) (e : Fin 32) :
    Read.val_main_v5 (F := Ideal) x0 x2 x3 (ix4 t h n e)
      = Attn.proj x0 x2 x3 n ⟨256 * t.val + 32 * h.val + e.val, by have := t.isLt; have := h.isLt; have := e.isLt; omega⟩ := by
  rw [Read.val_main_v5_apply, Read.val_main_v4_apply]
  have e4 : Read.idx_main_v4 (Read.idx_main_v5 (ix4 t h n e))
      = ix2 n (⟨256 * t.val + 32 * h.val + e.val, by have := t.isLt; have := h.isLt; have := e.isLt; omega⟩ : Fin 768) :=
    funext fun a => Fin.ext (by
      have ht := t.isLt; have hh := h.isLt; have hn := n.isLt; have he := e.isLt
      match a with
      | ⟨0, _⟩ => show (((n.val * 3 + t.val) * 8 + h.val) * 32 + e.val) / 768 = n.val; omega
      | ⟨1, _⟩ => show (((n.val * 3 + t.val) * 8 + h.val) * 32 + e.val) % 768 = 256 * t.val + 32 * h.val + e.val; omega)
  rw [e4]
  exact v3_at x0 x2 x3 n _

/-- A `[1,8,4096,32]` slice cast to `[8,4096,32]` is read at (0, h, n, e). -/
theorem idx7_at (h : Fin 8) (n : Fin 4096) (e : Fin 32) :
    Read.idx_main_v7 (ix3 h n e) = ix4 (0 : Fin 1) h n e :=
  funext fun a => Fin.ext (by
    have hh := h.isLt; have hn := n.isLt; have he := e.isLt
    match a with
    | ⟨0, _⟩ => rfl
    | ⟨1, _⟩ => show ((h.val * 4096 + n.val) * 32 + e.val) / 131072 % 8 = h.val; omega
    | ⟨2, _⟩ => show ((h.val * 4096 + n.val) * 32 + e.val) / 32 % 4096 = n.val; omega
    | ⟨3, _⟩ => show ((h.val * 4096 + n.val) * 32 + e.val) % 32 = e.val; omega)

/-- The query slice: head `h`, row `n`, entry `e`. -/
theorem v7_at (h : Fin 8) (n : Fin 4096) (e : Fin 32) :
    Read.val_main_v7 (F := Ideal) x0 x2 x3 (ix3 h n e) = Attn.proj x0 x2 x3 n (Attn.qcol (Attn.col h e)) := by
  rw [Read.val_main_v7_apply, Read.val_main_v6_apply]
  have e6 : Read.idx_main_v6 (Read.idx_main_v7 (ix3 h n e)) = ix4 (0 : Fin 3) h n e := by
    rw [show Read.idx_main_v7 (ix3 h n e) = ix4 (0 : Fin 1) h n e from idx7_at h n e]
    exact funext fun a => Fin.ext (by match a with | ⟨0, _⟩ => rfl | ⟨1, _⟩ => rfl | ⟨2, _⟩ => rfl | ⟨3, _⟩ => rfl)
  rw [e6, v5_at]
  exact congrArg (Attn.proj x0 x2 x3 n) (Fin.ext (by show 256 * 0 + 32 * h.val + e.val = 32 * h.val + e.val; omega))

/-- The key slice. -/
theorem v9_at (h : Fin 8) (n : Fin 4096) (e : Fin 32) :
    Read.val_main_v9 (F := Ideal) x0 x2 x3 (ix3 h n e) = Attn.proj x0 x2 x3 n (Attn.kcol (Attn.col h e)) := by
  rw [Read.val_main_v9_apply, Read.val_main_v8_apply]
  have e8 : Read.idx_main_v8 (Read.idx_main_v9 (ix3 h n e)) = ix4 (1 : Fin 3) h n e := by
    rw [show Read.idx_main_v9 (ix3 h n e) = ix4 (0 : Fin 1) h n e from idx7_at h n e]
    exact funext fun a => Fin.ext (by match a with | ⟨0, _⟩ => rfl | ⟨1, _⟩ => rfl | ⟨2, _⟩ => rfl | ⟨3, _⟩ => rfl)
  rw [e8, v5_at]
  exact congrArg (Attn.proj x0 x2 x3 n) (Fin.ext (by show 256 * 1 + 32 * h.val + e.val = 256 + (32 * h.val + e.val); omega))

/-- The value slice. -/
theorem v11_at (h : Fin 8) (n : Fin 4096) (e : Fin 32) :
    Read.val_main_v11 (F := Ideal) x0 x2 x3 (ix3 h n e) = Attn.proj x0 x2 x3 n (Attn.vcol (Attn.col h e)) := by
  rw [Read.val_main_v11_apply, Read.val_main_v10_apply]
  have e10 : Read.idx_main_v10 (Read.idx_main_v11 (ix3 h n e)) = ix4 (2 : Fin 3) h n e := by
    rw [show Read.idx_main_v11 (ix3 h n e) = ix4 (0 : Fin 1) h n e from idx7_at h n e]
    exact funext fun a => Fin.ext (by match a with | ⟨0, _⟩ => rfl | ⟨1, _⟩ => rfl | ⟨2, _⟩ => rfl | ⟨3, _⟩ => rfl)
  rw [e10, v5_at]
  exact congrArg (Attn.proj x0 x2 x3 n) (Fin.ext (by show 256 * 2 + 32 * h.val + e.val = 512 + (32 * h.val + e.val); omega))

/-- The head-wise product of queries and keys, summed over the 32 entries of the head. -/
theorem v12_at (h : Fin 8) (n m : Fin 4096) :
    Read.val_main_v12 (F := Ideal) x0 x2 x3 (ix3 h n m)
      = ∑ e : Fin 32, Attn.proj x0 x2 x3 n (Attn.qcol (Attn.col h e)) * Attn.proj x0 x2 x3 m (Attn.kcol (Attn.col h e)) := by
  rw [Read.val_main_v12_apply]
  refine Finset.sum_congr rfl fun e _ => ?_
  have el : Read.lidx_main_v12 (ix3 h n m) e = ix3 h n e :=
    funext fun a => Fin.ext (by match a with | ⟨0, _⟩ => rfl | ⟨1, _⟩ => rfl | ⟨2, _⟩ => rfl)
  have er : Read.ridx_main_v12 (ix3 h n m) e = ix3 h m e :=
    funext fun a => Fin.ext (by match a with | ⟨0, _⟩ => rfl | ⟨1, _⟩ => rfl | ⟨2, _⟩ => rfl)
  rw [el, er, v7_at, v9_at]

/-- The scaled scores. -/
theorem v14_at (h : Fin 8) (n m : Fin 4096) :
    Read.val_main_v14 (F := Ideal) x0 x2 x3 (ix3 h n m)
      = (∑ e : Fin 32, Attn.proj x0 x2 x3 n (Attn.qcol (Attn.col h e)) * Attn.proj x0 x2 x3 m (Attn.kcol (Attn.col h e))) * Attn.sc := by
  rw [Read.val_main_v14_apply, Read.val_main_v13_apply, Read.val_main_cst_apply, v12_at]
  rfl

/-- The positional projection at row `n`, head `h`. -/
theorem v18_at (n : Fin 4096) (h : Fin 8) :
    Read.val_main_v18 (F := Ideal) x1 x4 x5 (ix2 n h) = Attn.peProj x1 x4 x5 n h := by
  rw [Read.val_main_v18_apply, Read.val_main_v15_apply, Read.val_main_v17_apply, Read.val_main_v16_apply]
  have el : ∀ k : Fin 16, Read.lidx_main_v15 (ix2 n h) k = ix2 n k := fun k =>
    funext fun a => Fin.ext (by match a with | ⟨0, _⟩ => rfl | ⟨1, _⟩ => rfl)
  have er : ∀ k : Fin 16, Read.ridx_main_v15 (ix2 n h) k = ix2 k h := fun k =>
    funext fun a => Fin.ext (by match a with | ⟨0, _⟩ => rfl | ⟨1, _⟩ => rfl)
  have eb : Read.idx_main_v16 (Read.idx_main_v17 (ix2 n h)) = ix1 h :=
    funext fun a => Fin.ext (by match a with | ⟨0, _⟩ => rfl)
  simp only [el, er, eb, Ideal.addf_def]
  rfl

/-- The pairwise positional bias: the query row's projection minus the key row's. -/
theorem v24_at (h : Fin 8) (n m : Fin 4096) :
    Read.val_main_v24 (F := Ideal) x1 x4 x5 (ix3 h n m) = Attn.peProj x1 x4 x5 n h - Attn.peProj x1 x4 x5 m h := by
  rw [Read.val_main_v24_apply, Read.val_main_v23_apply, Read.val_main_v21_apply, Read.val_main_v19_apply,
    Read.val_main_v22_apply, Read.val_main_v20_apply]
  have e1 : Read.idx_main_v19 (Read.idx_main_v21 (Read.idx_main_v24 (ix3 h n m))) = ix2 n h :=
    funext fun a => Fin.ext (by match a with | ⟨0, _⟩ => rfl | ⟨1, _⟩ => rfl)
  have e2 : Read.idx_main_v20 (Read.idx_main_v22 (Read.idx_main_v24 (ix3 h n m))) = ix2 m h :=
    funext fun a => Fin.ext (by match a with | ⟨0, _⟩ => rfl | ⟨1, _⟩ => rfl)
  rw [e1, e2, v18_at, v18_at]
  rfl

/-- The scores of head `h`, query row `n`, key row `m`. -/
theorem v25_at (h : Fin 8) (n m : Fin 4096) :
    Read.val_main_v25 (F := Ideal) x0 x1 x2 x3 x4 x5 (ix3 h n m) = Attn.rScore x0 x1 x2 x3 x4 x5 h n m := by
  rw [Read.val_main_v25_apply, v14_at, v24_at]
  rfl

/-- The f32 word of −∞ is the least extended real. -/
theorem ofBits_neg_inf : Ideal.ofBits .f32 0xFF800000#32 = (⊥ : EReal) := by
  simp [Ideal.ofBits, Ideal.ieee]

/-- The reduced index (h, n) with key row `k` put back on the last axis is (h, n, k). -/
theorem lift_at (hR : S8x4096x4096.Reduces [2] S8x4096) (h : Fin 8) (n : Fin 4096) (k : Fin (S8x4096x4096.size 2)) :
    hR.lift (ix2 h n) k = ix3 h n (⟨k.val, k.isLt⟩ : Fin 4096) := by
  funext c; apply Fin.ext
  fin_cases c <;> rfl

/-- The row maximum of the scores, folded from −∞. -/
theorem v26_at (h : Fin 8) (n : Fin 4096) :
    Read.val_main_v26 (F := Ideal) x0 x1 x2 x3 x4 x5 (ix2 h n) = Attn.rMax x0 x1 x2 x3 x4 x5 h n := by
  have hR : S8x4096x4096.Reduces [2] S8x4096 := by decide
  unfold Read.val_main_v26
  rw [Host.reduce_eq_fold_single FloatOps.maximumf _ _ reducesTo_S8x4096x4096_S8x4096_d2 hR h_S_]
  have hf : (Read.val_main_v25 (F := Ideal) x0 x1 x2 x3 x4 x5 ∘ hR.lift (ix2 h n))
      = fun m : Fin 4096 => Attn.rScore x0 x1 x2 x3 x4 x5 h n m :=
    funext fun m => (congrArg (Read.val_main_v25 (F := Ideal) x0 x1 x2 x3 x4 x5) (lift_at hR h n m)).trans
      (v25_at x0 x1 x2 x3 x4 x5 h n _)
  have hi : Read.val_main_cst_0 (F := Ideal) (Shape.Idx.first h_S_) = (⊥ : EReal) := ofBits_neg_inf
  unfold Attn.rMax
  exact (congrArg₂ (fun b f => Finset.fold max b f (Finset.univ : Finset (Fin 4096))) hi hf)

/-- The maximum with −∞ changes nothing. -/
theorem v28_at (h : Fin 8) (n : Fin 4096) :
    Read.val_main_v28 (F := Ideal) x0 x1 x2 x3 x4 x5 (ix2 h n) = Attn.rMax x0 x1 x2 x3 x4 x5 h n := by
  rw [Read.val_main_v28_apply, Read.val_main_v27_apply, Read.val_main_cst_1_apply, v26_at]
  show max (Ideal.ofBits .f32 0xFF800000#32) _ = _
  rw [ofBits_neg_inf]
  exact max_eq_right bot_le

/-- The exponentials of the scores less their row maximum. -/
theorem v32_at (h : Fin 8) (n m : Fin 4096) :
    Read.val_main_v32 (F := Ideal) x0 x1 x2 x3 x4 x5 (ix3 h n m) = Attn.rExp x0 x1 x2 x3 x4 x5 h n m := by
  rw [Read.val_main_v32_apply, Read.val_main_v31_apply, Read.val_main_v30_apply, Read.val_main_v29_apply, v25_at]
  have e1 : Read.idx_main_v29 (Read.idx_main_v30 (ix3 h n m)) = ix2 h n :=
    funext fun a => Fin.ext (by match a with | ⟨0, _⟩ => rfl | ⟨1, _⟩ => rfl)
  rw [e1, v28_at]
  rfl

/-- The row sums of the exponentials. -/
theorem v33_at (h : Fin 8) (n : Fin 4096) :
    Read.val_main_v33 (F := Ideal) x0 x1 x2 x3 x4 x5 (ix2 h n) = ∑ m : Fin 4096, Attn.rExp x0 x1 x2 x3 x4 x5 h n m := by
  rw [Read.val_main_v33_apply, Read.val_main_cst_2_apply]
  show Ideal.ofBits .f32 0x00000000#32 + _ = _
  rw [Ideal.ofBits_zero_f32, zero_add]
  refine Finset.sum_congr rfl fun m _ => ?_
  have e1 : Read.idx_main_v33 (ix2 h n) m = ix3 h n m :=
    funext fun a => Fin.ext (by match a with | ⟨0, _⟩ => rfl | ⟨1, _⟩ => rfl | ⟨2, _⟩ => rfl)
  rw [e1, v32_at]

/-- The normalised weights. -/
theorem v36_at (h : Fin 8) (n m : Fin 4096) :
    Read.val_main_v36 (F := Ideal) x0 x1 x2 x3 x4 x5 (ix3 h n m) = Attn.rAttn x0 x1 x2 x3 x4 x5 h n m := by
  rw [Read.val_main_v36_apply, Read.val_main_v35_apply, Read.val_main_v34_apply, v32_at]
  have e1 : Read.idx_main_v34 (Read.idx_main_v35 (ix3 h n m)) = ix2 h n :=
    funext fun a => Fin.ext (by match a with | ⟨0, _⟩ => rfl | ⟨1, _⟩ => rfl)
  rw [e1, v33_at]
  rfl

/-- One head's output: the value rows averaged under the normalised weights. -/
theorem v37_at (h : Fin 8) (d : Fin 32) (n : Fin 4096) :
    Read.val_main_v37 (F := Ideal) x0 x1 x2 x3 x4 x5 (ix3 h d n) = Attn.rHead x0 x1 x2 x3 x4 x5 h d n := by
  rw [Read.val_main_v37_apply]
  unfold Attn.rHead
  refine Finset.sum_congr rfl fun m _ => ?_
  have el : Read.lidx_main_v37 (ix3 h d n) m = ix3 h m d :=
    funext fun a => Fin.ext (by match a with | ⟨0, _⟩ => rfl | ⟨1, _⟩ => rfl | ⟨2, _⟩ => rfl)
  have er : Read.ridx_main_v37 (ix3 h d n) m = ix3 h n m :=
    funext fun a => Fin.ext (by match a with | ⟨0, _⟩ => rfl | ⟨1, _⟩ => rfl | ⟨2, _⟩ => rfl)
  rw [el, er, v11_at, v36_at]

/-- The heads side by side: column `e` of row `n` is entry `e mod 32` of head `e / 32`. -/
theorem v39_at (n : Fin 4096) (e : Fin 256) :
    Read.val_main_v39 (F := Ideal) x0 x1 x2 x3 x4 x5 (ix2 n e)
      = Attn.rHead x0 x1 x2 x3 x4 x5 (Attn.hd e) (Attn.dd e) n := by
  rw [Read.val_main_v39_apply, Read.val_main_v38_apply]
  have e1 : Read.idx_main_v38 (Read.idx_main_v39 (ix2 n e)) = ix3 (Attn.hd e) (Attn.dd e) n :=
    funext fun a => Fin.ext (by
      have hn := n.isLt; have he := e.isLt
      match a with
      | ⟨0, _⟩ => show (n.val * 256 + e.val) / 32 % 8 = e.val / 32; omega
      | ⟨1, _⟩ => show (n.val * 256 + e.val) % 32 = e.val % 32; omega
      | ⟨2, _⟩ => show (n.val * 256 + e.val) / 256 = n.val; omega)
  rw [e1, v37_at]

end Stages

/-- The reference's last stage, as a function of the eight arguments, is the second arrangement. -/
theorem ref_eq (x0 : (⟨S4096x256, .f32⟩ : BufTy).Contents (Elt Ideal)) (x1 : (⟨S4096x16, .f32⟩ : BufTy).Contents (Elt Ideal))
    (x2 : (⟨S256x768, .f32⟩ : BufTy).Contents (Elt Ideal)) (x3 : (⟨S768, .f32⟩ : BufTy).Contents (Elt Ideal))
    (x4 : (⟨S16x8, .f32⟩ : BufTy).Contents (Elt Ideal)) (x5 : (⟨S8, .f32⟩ : BufTy).Contents (Elt Ideal))
    (x6 : (⟨S256x256, .f32⟩ : BufTy).Contents (Elt Ideal)) (x7 : (⟨S256, .f32⟩ : BufTy).Contents (Elt Ideal)) :
    Read.val_main_v43 (F := Ideal) x0 x1 x2 x3 x4 x5 x6 x7 = Attn.ROut x0 x1 x2 x3 x4 x5 x6 x7 := by
  funext i
  obtain ⟨n, j, rfl⟩ : ∃ (n : Fin 4096) (j : Fin 256), i = ix2 n j := ⟨i 0, i 1, eq_ix2 i⟩
  rw [Read.val_main_v43_apply, Read.val_main_v40_apply, Read.val_main_v42_apply, Read.val_main_v41_apply]
  have el : ∀ k : Fin 256, Read.lidx_main_v40 (ix2 n j) k = ix2 n k := fun k =>
    funext fun a => Fin.ext (by match a with | ⟨0, _⟩ => rfl | ⟨1, _⟩ => rfl)
  have er : ∀ k : Fin 256, Read.ridx_main_v40 (ix2 n j) k = ix2 k j := fun k =>
    funext fun a => Fin.ext (by match a with | ⟨0, _⟩ => rfl | ⟨1, _⟩ => rfl)
  have eb : Read.idx_main_v41 (Read.idx_main_v42 (ix2 n j)) = ix1 j :=
    funext fun a => Fin.ext (by match a with | ⟨0, _⟩ => rfl)
  simp only [el, er, eb, Ideal.addf_def, v39_at]
  rfl

end Cert.ReferenceIdeal.RefValue

end
-- ==== Proof.Bridge.lean ====
import proofs.«430919_j21088289423720_3_alg».proof.Proof.Spec

noncomputable section

namespace Attn

open Idealize.ShloMosaic Idealize.ShloMosaic.ValueIdx

namespace BridgeAux

/-! ## The softmax average on the reals -/

/-- The average of `v` under the softmax weights of the real scores `s`, with no shift. -/
def canon {ι : Type} [Fintype ι] (s v : ι → ℝ) : ℝ :=
  (∑ m, Real.exp (s m) * v m) * (1 / ∑ m, Real.exp (s m))

/-- Adding one constant to every score changes numerator and denominator by the same factor. -/
theorem canon_shift {ι : Type} [Fintype ι] [Nonempty ι] (s v : ι → ℝ) (t : ℝ) :
    canon (fun m => s m + t) v = canon s v := by
  unfold canon
  have hpos : 0 < ∑ m, Real.exp (s m) := Finset.sum_pos (fun m _ => Real.exp_pos _) Finset.univ_nonempty
  have hB : (∑ m, Real.exp (s m)) ≠ 0 := hpos.ne'
  have ht : Real.exp t ≠ 0 := (Real.exp_pos t).ne'
  have h1 : ∑ m, Real.exp (s m + t) * v m = (∑ m, Real.exp (s m) * v m) * Real.exp t := by
    rw [Finset.sum_mul]; exact Finset.sum_congr rfl (fun m _ => by rw [Real.exp_add]; ring)
  have h2 : ∑ m, Real.exp (s m + t) = (∑ m, Real.exp (s m)) * Real.exp t := by
    rw [Finset.sum_mul]; exact Finset.sum_congr rfl (fun m _ => Real.exp_add _ _)
  rw [h1, h2]
  field_simp

/-! ## Real numbers inside the extended reals -/

/-- A finite sum of reals, read in the extended reals, is the sum of the readings. -/
theorem coe_sum {ι : Type} (t : Finset ι) (f : ι → ℝ) :
    ∑ i ∈ t, (f i : EReal) = ((∑ i ∈ t, f i : ℝ) : EReal) := by
  classical
  refine Finset.induction_on t (by simp) ?_
  intro a t ha ih
  rw [Finset.sum_insert ha, Finset.sum_insert ha, ih, EReal.coe_add]

/-- The running maximum, started at `⊥`, of finitely many (at least one) reals is a real. -/
theorem foldmax_real {ι : Type} (t : Finset ι) (ht : t.Nonempty) (s : ι → ℝ) :
    ∃ M : ℝ, t.fold max ⊥ (fun m => (s m : EReal)) = (M : EReal) := by
  obtain ⟨m0, hm0⟩ := ht
  have hlt : t.fold max ⊥ (fun m => (s m : EReal)) < ⊤ :=
    (Finset.fold_max_lt _).2 ⟨bot_lt_top, fun m _ => EReal.coe_lt_top _⟩
  have hge : (s m0 : EReal) ≤ t.fold max ⊥ (fun m => (s m : EReal)) :=
    (Finset.le_fold_max _).2 (Or.inr ⟨m0, hm0, le_rfl⟩)
  have hne_bot : t.fold max ⊥ (fun m => (s m : EReal)) ≠ ⊥ :=
    (lt_of_lt_of_le (EReal.bot_lt_coe _) hge).ne'
  exact ⟨_, (EReal.coe_toReal hlt.ne hne_bot).symm⟩

/-- The exponential of a difference of two reals. -/
theorem exp_coe_sub (a M : ℝ) : Ideal.exp ((a : EReal) - (M : EReal)) = ((Real.exp (a + -M) : ℝ) : EReal) := by
  rw [← EReal.coe_sub, Ideal.exp_coe, sub_eq_add_neg]

/-- The first arrangement's softmax average, on real scores and values, is the unshifted real average. -/
theorem softAvg_coe (s v : Fin 4096 → ℝ) :
    softAvg (fun m => (s m : EReal)) (fun m => (v m : EReal)) = (canon s v : EReal) := by
  haveI : Nonempty (Fin 4096) := ⟨⟨0, by norm_num⟩⟩
  obtain ⟨M, hM⟩ := foldmax_real Finset.univ Finset.univ_nonempty s
  unfold softAvg
  rw [hM]
  simp only [exp_coe_sub, ← EReal.coe_mul]
  rw [coe_sum, coe_sum]
  have hpos : 0 < ∑ m, Real.exp (s m + -M) := Finset.sum_pos (fun m _ => Real.exp_pos _) Finset.univ_nonempty
  rw [Ideal.div_coe hpos.ne', ← EReal.coe_mul, ← canon_shift s v (-M)]
  rfl

/-- The second arrangement's average (weights normalised first), on real scores and values, is the same
    unshifted real average. -/
theorem refAvg_coe (s v : Fin 4096 → ℝ) (F : Fin 4096 → EReal) (hF : F = fun m => (s m : EReal)) :
    (∑ m, (v m : EReal) * Ideal.div (Ideal.exp (F m - (Finset.univ : Finset (Fin 4096)).fold max ⊥ F))
        (∑ m', Ideal.exp (F m' - (Finset.univ : Finset (Fin 4096)).fold max ⊥ F)))
      = (canon s v : EReal) := by
  subst hF
  haveI : Nonempty (Fin 4096) := ⟨⟨0, by norm_num⟩⟩
  obtain ⟨M, hM⟩ := foldmax_real Finset.univ Finset.univ_nonempty s
  rw [hM]
  simp only [exp_coe_sub]
  rw [coe_sum]
  have hpos : 0 < ∑ m, Real.exp (s m + -M) := Finset.sum_pos (fun m _ => Real.exp_pos _) Finset.univ_nonempty
  simp only [Ideal.div_coe hpos.ne', ← EReal.coe_mul]
  rw [coe_sum, ← canon_shift s v (-M)]
  refine congrArg Real.toEReal ?_
  unfold canon
  rw [Finset.sum_mul]
  exact Finset.sum_congr rfl (fun m _ => by ring)

/-! ## The scale is a real number -/

theorem sc_real : ∃ cr : ℝ, sc = (cr : EReal) := by
  unfold sc Ideal.ofBits Ideal.ieee
  simp only []
  rw [if_neg (by decide), if_neg (by decide)]
  exact ⟨_, rfl⟩

/-! ## The projections of real arrays are real -/

/-- The fused projection, computed in the reals. -/
def prR (x : (⟨2, ![4096, 256]⟩ : Shape).Idx → ℝ) (W : (⟨2, ![256, 768]⟩ : Shape).Idx → ℝ)
    (b : (⟨1, ![768]⟩ : Shape).Idx → ℝ) (n : Fin 4096) (j : Fin 768) : ℝ :=
  (∑ a : Fin 256, x (ix2 n a) * W (ix2 a j)) + b (ix1 j)

/-- The positional projection, computed in the reals. -/
def ppR (pe : (⟨2, ![4096, 16]⟩ : Shape).Idx → ℝ) (Wpe : (⟨2, ![16, 8]⟩ : Shape).Idx → ℝ)
    (bpe : (⟨1, ![8]⟩ : Shape).Idx → ℝ) (n : Fin 4096) (h : Fin 8) : ℝ :=
  (∑ a : Fin 16, pe (ix2 n a) * Wpe (ix2 a h)) + bpe (ix1 h)

theorem proj_coe (x : (⟨2, ![4096, 256]⟩ : Shape).Idx → ℝ) (W : (⟨2, ![256, 768]⟩ : Shape).Idx → ℝ)
    (b : (⟨1, ![768]⟩ : Shape).Idx → ℝ) (n : Fin 4096) (j : Fin 768) :
    proj (fun i => (x i : EReal)) (fun i => (W i : EReal)) (fun i => (b i : EReal)) n j = (prR x W b n j : EReal) := by
  unfold proj prR
  simp only [← EReal.coe_mul]
  rw [coe_sum, ← EReal.coe_add]

theorem peProj_coe (pe : (⟨2, ![4096, 16]⟩ : Shape).Idx → ℝ) (Wpe : (⟨2, ![16, 8]⟩ : Shape).Idx → ℝ)
    (bpe : (⟨1, ![8]⟩ : Shape).Idx → ℝ) (n : Fin 4096) (h : Fin 8) :
    peProj (fun i => (pe i : EReal)) (fun i => (Wpe i : EReal)) (fun i => (bpe i : EReal)) n h
      = (ppR pe Wpe bpe n h : EReal) := by
  unfold peProj ppR
  simp only [← EReal.coe_mul]
  rw [coe_sum, ← EReal.coe_add]

/-! ## One head, one query row, one entry -/

section Head
variable (x : (⟨2, ![4096, 256]⟩ : Shape).Idx → ℝ) (pe : (⟨2, ![4096, 16]⟩ : Shape).Idx → ℝ)
  (W : (⟨2, ![256, 768]⟩ : Shape).Idx → ℝ) (b : (⟨1, ![768]⟩ : Shape).Idx → ℝ)
  (Wpe : (⟨2, ![16, 8]⟩ : Shape).Idx → ℝ) (bpe : (⟨1, ![8]⟩ : Shape).Idx → ℝ)

/-- The first arrangement's real score: scale folded into the query, key-side bias only. -/
def skR (cr : ℝ) (h : Fin 8) (n m : Fin 4096) : ℝ :=
  (∑ e : Fin 32, (prR x W b n (qcol (col h e)) * cr) * prR x W b m (kcol (col h e))) - ppR pe Wpe bpe m h

/-- The second arrangement's real score: scale on the product, both bias terms. -/
def srR (cr : ℝ) (h : Fin 8) (n m : Fin 4096) : ℝ :=
  (∑ e : Fin 32, prR x W b n (qcol (col h e)) * prR x W b m (kcol (col h e))) * cr
    + (ppR pe Wpe bpe n h - ppR pe Wpe bpe m h)

/-- The two scores differ by the query-side bias, which does not depend on the key row. -/
theorem srR_eq (cr : ℝ) (h : Fin 8) (n m : Fin 4096) :
    srR x pe W b Wpe bpe cr h n m = skR x pe W b Wpe bpe cr h n m + ppR pe Wpe bpe n h := by
  unfold srR skR
  have hs : ∑ e : Fin 32, (prR x W b n (qcol (col h e)) * cr) * prR x W b m (kcol (col h e))
      = (∑ e : Fin 32, prR x W b n (qcol (col h e)) * prR x W b m (kcol (col h e))) * cr := by
    rw [Finset.sum_mul]; exact Finset.sum_congr rfl (fun e _ => by ring)
  rw [hs]; ring

theorem head_eq (h : Fin 8) (d : Fin 32) (n : Fin 4096) :
    kHead (fun e => KQ (fun i => (x i : EReal)) (fun i => (W i : EReal)) (fun i => (b i : EReal)) (ix2 n e))
        (KK (fun i => (x i : EReal)) (fun i => (W i : EReal)) (fun i => (b i : EReal)))
        (KV (fun i => (x i : EReal)) (fun i => (W i : EReal)) (fun i => (b i : EReal)))
        (KPt (fun i => (pe i : EReal)) (fun i => (Wpe i : EReal)) (fun i => (bpe i : EReal))) h d
      = rHead (fun i => (x i : EReal)) (fun i => (pe i : EReal)) (fun i => (W i : EReal)) (fun i => (b i : EReal))
        (fun i => (Wpe i : EReal)) (fun i => (bpe i : EReal)) h d n := by
  obtain ⟨cr, hcr⟩ := sc_real
  haveI : Nonempty (Fin 4096) := ⟨⟨0, by norm_num⟩⟩
  have hk : kHead (fun e => KQ (fun i => (x i : EReal)) (fun i => (W i : EReal)) (fun i => (b i : EReal)) (ix2 n e))
        (KK (fun i => (x i : EReal)) (fun i => (W i : EReal)) (fun i => (b i : EReal)))
        (KV (fun i => (x i : EReal)) (fun i => (W i : EReal)) (fun i => (b i : EReal)))
        (KPt (fun i => (pe i : EReal)) (fun i => (Wpe i : EReal)) (fun i => (bpe i : EReal))) h d
      = softAvg (fun m => ((skR x pe W b Wpe bpe cr h n m : ℝ) : EReal))
          (fun m => ((prR x W b m (vcol (col h d)) : ℝ) : EReal)) := by
    unfold kHead
    have hs : (fun m : Fin 4096 => (∑ e : Fin 32,
          (KQ (fun i => (x i : EReal)) (fun i => (W i : EReal)) (fun i => (b i : EReal)) (ix2 n (col h e)) * sc)
            * KK (fun i => (x i : EReal)) (fun i => (W i : EReal)) (fun i => (b i : EReal)) (ix2 m (col h e)))
          - KPt (fun i => (pe i : EReal)) (fun i => (Wpe i : EReal)) (fun i => (bpe i : EReal)) (ix2 h m))
        = fun m => ((skR x pe W b Wpe bpe cr h n m : ℝ) : EReal) := by
      funext m
      show (∑ e : Fin 32,
          (proj (fun i => (x i : EReal)) (fun i => (W i : EReal)) (fun i => (b i : EReal)) n (qcol (col h e)) * sc)
            * proj (fun i => (x i : EReal)) (fun i => (W i : EReal)) (fun i => (b i : EReal)) m (kcol (col h e)))
          - peProj (fun i => (pe i : EReal)) (fun i => (Wpe i : EReal)) (fun i => (bpe i : EReal)) m h = _
      unfold skR
      simp only [proj_coe, peProj_coe, hcr, ← EReal.coe_mul]
      rw [coe_sum, ← EReal.coe_sub]
    have hv : (fun m : Fin 4096 => KV (fun i => (x i : EReal)) (fun i => (W i : EReal)) (fun i => (b i : EReal)) (ix2 m (col h d)))
        = fun m => ((prR x W b m (vcol (col h d)) : ℝ) : EReal) := by
      funext m
      exact proj_coe x W b m (vcol (col h d))
    exact (congrArg (fun s => softAvg s _) hs).trans (congrArg (fun v => softAvg _ v) hv)
  have hr : rHead (fun i => (x i : EReal)) (fun i => (pe i : EReal)) (fun i => (W i : EReal)) (fun i => (b i : EReal))
        (fun i => (Wpe i : EReal)) (fun i => (bpe i : EReal)) h d n
      = ((canon (srR x pe W b Wpe bpe cr h n) (fun m => prR x W b m (vcol (col h d))) : ℝ) : EReal) := by
    have hF : rScore (fun i => (x i : EReal)) (fun i => (pe i : EReal)) (fun i => (W i : EReal)) (fun i => (b i : EReal))
        (fun i => (Wpe i : EReal)) (fun i => (bpe i : EReal)) h n
        = fun m => ((srR x pe W b Wpe bpe cr h n m : ℝ) : EReal) := by
      funext m
      unfold rScore srR
      simp only [proj_coe, peProj_coe, hcr, ← EReal.coe_mul]
      rw [coe_sum, ← EReal.coe_mul, ← EReal.coe_sub, ← EReal.coe_add]
    unfold rHead rAttn rExp rMax
    simp only [proj_coe]
    exact refAvg_coe (srR x pe W b Wpe bpe cr h n) (fun m => prR x W b m (vcol (col h d))) _ hF
  rw [hk, softAvg_coe, hr]
  have hsh : srR x pe W b Wpe bpe cr h n = fun m => skR x pe W b Wpe bpe cr h n m + ppR pe Wpe bpe n h :=
    funext (fun m => srR_eq x pe W b Wpe bpe cr h n m)
  rw [hsh, canon_shift]

end Head

end BridgeAux

/-- On real (finite) inputs the two arrangements are one function. -/
theorem bridge (x : (⟨2, ![4096, 256]⟩ : Shape).Idx → ℝ) (pe : (⟨2, ![4096, 16]⟩ : Shape).Idx → ℝ)
    (W : (⟨2, ![256, 768]⟩ : Shape).Idx → ℝ) (b : (⟨1, ![768]⟩ : Shape).Idx → ℝ)
    (Wpe : (⟨2, ![16, 8]⟩ : Shape).Idx → ℝ) (bpe : (⟨1, ![8]⟩ : Shape).Idx → ℝ)
    (Wout : (⟨2, ![256, 256]⟩ : Shape).Idx → ℝ) (bout : (⟨1, ![256]⟩ : Shape).Idx → ℝ) :
    KOut (fun i => (x i : EReal)) (fun i => (pe i : EReal)) (fun i => (W i : EReal)) (fun i => (b i : EReal))
        (fun i => (Wpe i : EReal)) (fun i => (bpe i : EReal)) (fun i => (Wout i : EReal)) (fun i => (bout i : EReal))
      = ROut (fun i => (x i : EReal)) (fun i => (pe i : EReal)) (fun i => (W i : EReal)) (fun i => (b i : EReal))
        (fun i => (Wpe i : EReal)) (fun i => (bpe i : EReal)) (fun i => (Wout i : EReal)) (fun i => (bout i : EReal)) := by
  funext i
  unfold KOut attnOut kRow ROut
  refine congrArg (fun t => t + (fun i => (bout i : EReal)) (ix1 (c1 i))) ?_
  exact Finset.sum_congr rfl (fun e _ => by rw [BridgeAux.head_eq])

end Attn

end
-- ==== Proof.Finite.lean ====
import proofs.«430919_j21088289423720_3_alg».proof.Defs
import Idealize.ShloMosaic.Lib.ReduceAll
import Idealize.ShloMosaic.Lib.ValueIdx

noncomputable section

namespace Cert.Proof.Finite

open Idealize.ShloMosaic Idealize.SL.Sem Idealize.ShloMosaic.ValueIdx

/-- A rank-0 shape has exactly one index. -/
instance : Subsingleton (Cert.Pre_finite_inputs.S_).Idx := ⟨fun a b => funext fun d => d.elim0⟩

/-- An extended real whose absolute value `max x (-x)` lies strictly below `+∞` is a real number:
    at `⊥` and at `⊤` the absolute value is `⊤`, which is not below `⊤`. -/
theorem real_of_abs_lt_top (x : EReal)
    (e : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at e
  rw [htop] at e
  induction x using EReal.rec with
  | bot => simp [Ideal.cmp] at e
  | coe r => exact ⟨r, rfl⟩
  | top => simp [Ideal.cmp] at e

/-- One conjunct of the precondition: if the conjunction over all entries of `|f i| < +∞` holds, then
    `f` is the coercion of an array of real numbers (entry `i` of that array is `(f i).toReal`). -/
theorem reals_of_all {s : Shape} {axes : List (Fin s.rank)} (f : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
        (cmpf .olt (Host.absf f)
          (broadcastInDim s ![] hb (constant (F := Ideal) Cert.Pre_finite_inputs.S_ .f32 0x7F800000#32)))
        (constantI Cert.Pre_finite_inputs.S_ 1 1#1) hr hu ix0 = 1#1) :
    ∃ x : s.Idx → ℝ, f = fun i => (x i : EReal) := by
  have key : ∀ i, ∃ r : ℝ, f i = (r : EReal) := fun i =>
    real_of_abs_lt_top (f i) (Host.reduce_andi_all _ _ hr hu ix0 e i)
  choose x hx using key
  exact ⟨x, funext hx⟩

/-- Under `finite_inputs` every argument array of the idealized kernel is an array of real numbers. -/
theorem reals_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : (⟨2, ![4096, 256]⟩ : Shape).Idx → ℝ) (pe : (⟨2, ![4096, 16]⟩ : Shape).Idx → ℝ)
      (W : (⟨2, ![256, 768]⟩ : Shape).Idx → ℝ) (b : (⟨1, ![768]⟩ : Shape).Idx → ℝ)
      (Wpe : (⟨2, ![16, 8]⟩ : Shape).Idx → ℝ) (bpe : (⟨1, ![8]⟩ : Shape).Idx → ℝ)
      (Wout : (⟨2, ![256, 256]⟩ : Shape).Idx → ℝ) (bout : (⟨1, ![256]⟩ : Shape).Idx → ℝ),
      m ((c.tc : Thread Cert.KernelIdeal.nD Cert.KernelIdeal.τ).loc Cert.KernelIdeal.main_arg0) = (fun i => (x i : EReal))
      ∧ m ((c.tc : Thread Cert.KernelIdeal.nD Cert.KernelIdeal.τ).loc Cert.KernelIdeal.main_arg1) = (fun i => (pe i : EReal))
      ∧ m ((c.tc : Thread Cert.KernelIdeal.nD Cert.KernelIdeal.τ).loc Cert.KernelIdeal.main_arg2) = (fun i => (W i : EReal))
      ∧ m ((c.tc : Thread Cert.KernelIdeal.nD Cert.KernelIdeal.τ).loc Cert.KernelIdeal.main_arg3) = (fun i => (b i : EReal))
      ∧ m ((c.tc : Thread Cert.KernelIdeal.nD Cert.KernelIdeal.τ).loc Cert.KernelIdeal.main_arg4) = (fun i => (Wpe i : EReal))
      ∧ m ((c.tc : Thread Cert.KernelIdeal.nD Cert.KernelIdeal.τ).loc Cert.KernelIdeal.main_arg5) = (fun i => (bpe i : EReal))
      ∧ m ((c.tc : Thread Cert.KernelIdeal.nD Cert.KernelIdeal.τ).loc Cert.KernelIdeal.main_arg6) = (fun i => (Wout i : EReal))
      ∧ m ((c.tc : Thread Cert.KernelIdeal.nD Cert.KernelIdeal.τ).loc Cert.KernelIdeal.main_arg7) = (fun i => (bout i : EReal)) := by
  have h0 := congrFun (h c) ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  obtain ⟨x, hx⟩ := reals_of_all _ _ _ _ e0
  obtain ⟨pe, hpe⟩ := reals_of_all _ _ _ _ e1
  obtain ⟨W, hW⟩ := reals_of_all _ _ _ _ e2
  obtain ⟨b, hb⟩ := reals_of_all _ _ _ _ e3
  obtain ⟨Wpe, hWpe⟩ := reals_of_all _ _ _ _ e4
  obtain ⟨bpe, hbpe⟩ := reals_of_all _ _ _ _ e5
  obtain ⟨Wout, hWout⟩ := reals_of_all _ _ _ _ e6
  obtain ⟨bout, hbout⟩ := reals_of_all _ _ _ _ e7
  exact ⟨x, pe, W, b, Wpe, bpe, Wout, bout, hx, hpe, hW, hb, hWpe, hbpe, hWout, hbout⟩

end Cert.Proof.Finite

end
-- ==== Proof.lean ====
/-
  The certificate's claims assembled.

  Both idealized programs compute the attention layer with a pairwise positional bias; they arrange it differently
  (Proof/Spec.lean). The idealized kernel's run ends with its result array at the first arrangement of the launch
  memory's arguments (Proof/ValueRun.lean names the result in the run; Proof/Chain.lean reads it back through the two
  calls and the transpose between them; Proof/Reg0.lean, Proof/Reg1.lean, Proof/Tile.lean and Proof/Heads.lean
  read each call's arrays, blocks and heads). The reference's run ends at the second arrangement (Proof/RefSide.lean).
  Under the precondition every argument is an array of real numbers (Proof/Finite.lean), and on real arguments the
  two arrangements are one function (Proof/Bridge.lean): the scale commutes with the finite sum of the scores, the
  query-side bias shifts a whole softmax row by a constant, and normalising before or after the weighted sum of the
  values is the same division by a positive real.
-/
import proofs.«430919_j21088289423720_3_alg».proof.Defs
import proofs.«430919_j21088289423720_3_alg».proof.Proof.Gen.Kernel
import proofs.«430919_j21088289423720_3_alg».proof.Proof.Gen.Kernel.Skeleton
import proofs.«430919_j21088289423720_3_alg».proof.Proof.Gen.Kernel.Launch
import proofs.«430919_j21088289423720_3_alg».proof.Proof.Gen.Kernel.Points
import proofs.«430919_j21088289423720_3_alg».proof.Proof.Gen.Kernel.Frame
import proofs.«430919_j21088289423720_3_alg».proof.Proof.Gen.KernelIdeal
import proofs.«430919_j21088289423720_3_alg».proof.Proof.Gen.KernelIdeal.Skeleton
import proofs.«430919_j21088289423720_3_alg».proof.Proof.Gen.KernelIdeal.Launch
import proofs.«430919_j21088289423720_3_alg».proof.Proof.Gen.KernelIdeal.Points
import proofs.«430919_j21088289423720_3_alg».proof.Proof.Gen.KernelIdeal.Frame
import proofs.«430919_j21088289423720_3_alg».proof.Proof.Gen.ReferenceIdeal
import proofs.«430919_j21088289423720_3_alg».proof.Proof.Gen.ReferenceIdeal.Run
import proofs.«430919_j21088289423720_3_alg».proof.Proof.Gen.ReferenceIdeal.Read
import proofs.«430919_j21088289423720_3_alg».proof.Proof.Gen.Pre_finite_inputs
import proofs.«430919_j21088289423720_3_alg».proof.Proof.Spec
import proofs.«430919_j21088289423720_3_alg».proof.Proof.ValueRun
import proofs.«430919_j21088289423720_3_alg».proof.Proof.Chain
import proofs.«430919_j21088289423720_3_alg».proof.Proof.RefSide
import proofs.«430919_j21088289423720_3_alg».proof.Proof.Bridge
import proofs.«430919_j21088289423720_3_alg».proof.Proof.Finite
import Idealize.ShloMosaic.Adequacy
import Idealize.ShloMosaic.Init

noncomputable section

namespace Cert.Proof

open Idealize.ShloMosaic Idealize.SL.Sem

section Claims
variable [hK : Cert.Kernel.Facts] [hKI : Cert.KernelIdeal.Facts] [hRI : Cert.ReferenceIdeal.Facts] [hP : Cert.Pre_finite_inputs.Facts]

/-- The word-level kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at one array: the kernel's run at the first arrangement of its arguments, the
    reference's at the second arrangement of arguments that agree, and the arguments are real. -/
theorem algebraic : Cert.algebraic_KernelIdeal_ReferenceIdeal := by
  intro m ρ m' ρ' hpre hagree
  refine ⟨fun c => Attn.KOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.AttnValue.result_eq m ρ c), (h c).2⟩)
      (Cert.KernelIdeal.AttnValue.run_v2 (F := Ideal) m ρ)
  · refine (θ_run Cert.ReferenceIdeal.defs _ _).mono (fun r h c => ⟨?_, (h c).2⟩)
      (Cert.ReferenceIdeal.Value.run (F := Ideal) m' ρ')
    obtain ⟨x, pe, W, b, Wpe, bpe, Wout, bout, e0, e1, e2, e3, e4, e5, e6, e7⟩ := Cert.Proof.Finite.reals_of_pre m hpre c
    rw [(h c).1, Cert.ReferenceIdeal.Read.val_main_v43_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
    show Attn.ROut _ _ _ _ _ _ _ _ = Attn.KOut _ _ _ _ _ _ _ _
    rw [e0, e1, e2, e3, e4, e5, e6, e7]
    exact (Attn.bridge x pe W b Wpe bpe Wout bout).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
